-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part2 {F : FTy → Type} [FloatOps F] (main_arg1 : IVec S2x800000 32) (main_arg8 : FVec F S128x128 .f32) (main_arg9 : FVec F S128 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_c_16 : IVec S_ 32 := constantI S_ 32 0#32
  let main_v44 : IVec S2x800000 32 := broadcastInDim S2x800000 ![] bcast_S_S2x800000 main_c_16
  let main_v45 : IVec S2x800000 1 := cmpi .sge main_arg1 main_v44
  let main_c_17 : IVec S_ 32 := constantI S_ 32 50000#32
  let main_v46 : IVec S2x800000 32 := broadcastInDim S2x800000 ![] bcast_S_S2x800000 main_c_17
  let main_v47 : IVec S2x800000 1 := cmpi .slt main_arg1 main_v46
  let main_v48 : IVec S2x800000 1 := andi main_v45 main_v47
  let main_c_18 : IVec S_ 1 := constantI S_ 1 1#1
  let main_v49 : IVec S_ 1 := (fun x v => Host.reduce IntOp.andi x v reducesTo_S2x800000_S_d0_1 h_S_) main_v48 main_c_18
  let main_v50 : IVec S_ 1 := andi main_v43 main_v49
  main_v50

def fn_part1 {F : FTy → Type} [FloatOps F] (main_arg1 : IVec S2x800000 32) (main_arg5 : FVec F S128 .f32) (main_arg6 : FVec F S256x128 .f32) (main_arg7 : FVec F S128 .f32) (main_arg8 : FVec F S128x128 .f32) (main_arg9 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S256x128 .f32 := Host.absf main_arg6
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_v33

def fn {F : FTy → Type} [FloatOps F] (main_arg0 : FVec F S50000x128 .f32) (main_arg1 : IVec S2x800000 32) (main_arg2 : FVec F S256x128 .f32) (main_arg3 : FVec F S128 .f32) (main_arg4 : FVec F S128x128 .f32) (main_arg5 : FVec F S128 .f32) (main_arg6 : FVec F S256x128 .f32) (main_arg7 : FVec F S128 .f32) (main_arg8 : FVec F S128x128 .f32) (main_arg9 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg5 main_arg6 main_arg7 main_arg8 main_arg9 main_v13 main_v16
-- ==== Kernel.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x128 : Shape := ⟨2, ![800000, 128]⟩
abbrev S1x128 : Shape := ⟨2, ![1, 128]⟩
abbrev S3200x128 : Shape := ⟨2, ![3200, 128]⟩
abbrev S5000x128 : Shape := ⟨2, ![5000, 128]⟩

abbrev nBuf : Space → Nat
  | .hbm => 74
  | .vmem => 22
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S1, .i32⟩
  | .hbm, ⟨23, _⟩ => ⟨S_, .i32⟩
  | .hbm, ⟨24, _⟩ => ⟨S800000x1, .i32⟩
  | .hbm, ⟨25, _⟩ => ⟨S800000x1, .i1⟩
  | .hbm, ⟨26, _⟩ => ⟨S1x1, .i32⟩
  | .hbm, ⟨27, _⟩ => ⟨S800000x1, .i32⟩
  | .hbm, ⟨28, _⟩ => ⟨S800000x1, .i1⟩
  | .hbm, ⟨29, _⟩ => ⟨S800000x1, .i1⟩
  | .hbm, ⟨30, _⟩ => ⟨S_, .i1⟩
  | .hbm, ⟨31, _⟩ => ⟨S800000, .i1⟩
  | .hbm, ⟨32, _⟩ => ⟨S800000x128, .f32⟩
  | .hbm, ⟨33, _⟩ => ⟨S800000x128, .i1⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S1, .i32⟩
  | .hbm, ⟨46, _⟩ => ⟨S_, .i32⟩
  | .hbm, ⟨47, _⟩ => ⟨S800000x1, .i32⟩
  | .hbm, ⟨48, _⟩ => ⟨S800000x1, .i1⟩
  | .hbm, ⟨49, _⟩ => ⟨S1x1, .i32⟩
  | .hbm, ⟨50, _⟩ => ⟨S800000x1, .i32⟩
  | .hbm, ⟨51, _⟩ => ⟨S800000x1, .i1⟩
  | .hbm, ⟨52, _⟩ => ⟨S800000x1, .i1⟩
  | .hbm, ⟨53, _⟩ => ⟨S_, .i1⟩
  | .hbm, ⟨54, _⟩ => ⟨S800000, .i1⟩
  | .hbm, ⟨55, _⟩ => ⟨S800000x128, .f32⟩
  | .hbm, ⟨56, _⟩ => ⟨S800000x128, .i1⟩
  | .hbm, ⟨57, _⟩ => ⟨S_, .f32⟩
  | .hbm, ⟨58, _⟩ => ⟨S800000x128, .f32⟩
  | .hbm, ⟨59, _⟩ => ⟨S800000x128, .f32⟩
  | .hbm, ⟨60, _⟩ => ⟨S1x128, .f32⟩
  | .hbm, ⟨61, _⟩ => ⟨S1x128, .f32⟩
  | .hbm, ⟨62, _⟩ => ⟨S128x128, .f32⟩
  | .hbm, ⟨63, _⟩ => ⟨S128x128, .f32⟩
  | .hbm, ⟨64, _⟩ => ⟨S800000x128, .f32⟩
  | .hbm, ⟨65, _⟩ => ⟨S_, .f32⟩
  | .hbm, ⟨66, _⟩ => ⟨S50000x128, .f32⟩
  | .hbm, ⟨67, _⟩ => ⟨S800000x1, .i32⟩
  | .hbm, ⟨68, _⟩ => ⟨S50000x128, .f32⟩
  | .hbm, ⟨69, _⟩ => ⟨S1x128, .f32⟩
  | .hbm, ⟨70, _⟩ => ⟨S1x128, .f32⟩
  | .hbm, ⟨71, _⟩ => ⟨S128x128, .f32⟩
  | .hbm, ⟨72, _⟩ => ⟨S128x128, .f32⟩
  | .hbm, ⟨73, _⟩ => ⟨S50000x128, .f32⟩
  | .local _ .vmem, ⟨0, _⟩ => ⟨S3200x128, .f32⟩
  | .local _ .vmem, ⟨1, _⟩ => ⟨S3200x128, .f32⟩
  | .local _ .vmem, ⟨2, _⟩ => ⟨S3200x128, .f32⟩
  | .local _ .vmem, ⟨3, _⟩ => ⟨S3200x128, .f32⟩
  | .local _ .vmem, ⟨4, _⟩ => ⟨S128x128, .f32⟩
  | .local _ .vmem, ⟨5, _⟩ => ⟨S128x128, .f32⟩
  | .local _ .vmem, ⟨6, _⟩ => ⟨S1x128, .f32⟩
  | .local _ .vmem, ⟨7, _⟩ => ⟨S128x128, .f32⟩
  | .local _ .vmem, ⟨8, _⟩ => ⟨S1x128, .f32⟩
  | .local _ .vmem, ⟨9, _⟩ => ⟨S3200x128, .f32⟩
  | .local _ .vmem, ⟨10, _⟩ => ⟨S3200x128, .f32⟩
  | .local _ .vmem, ⟨11, _⟩ => ⟨S5000x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S128x128, .f32⟩
  | .local _ .vmem, ⟨16, _⟩ => ⟨S128x128, .f32⟩
  | .local _ .vmem, ⟨17, _⟩ => ⟨S1x128, .f32⟩
  | .local _ .vmem, ⟨18, _⟩ => ⟨S128x128, .f32⟩
  | .local _ .vmem, ⟨19, _⟩ => ⟨S1x128, .f32⟩
  | .local _ .vmem, ⟨20, _⟩ => ⟨S5000x128, .f32⟩
  | .local _ .vmem, ⟨21, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v4 : Ref sig .tc := ⟨.hbm, 36, rfl⟩
abbrev main_call1_c : Ref sig .tc := ⟨.hbm, 37, rfl⟩
abbrev main_call1_v0 : Ref sig .tc := ⟨.hbm, 38, rfl⟩
abbrev main_call1_v1 : Ref sig .tc := ⟨.hbm, 39, rfl⟩
abbrev main_call1_c_0 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_call1_v5 : Ref sig .tc := ⟨.hbm, 44, rfl⟩
abbrev main_call1_c_1 : Ref sig .tc := ⟨.hbm, 45, rfl⟩
abbrev main_call1_c_2 : Ref sig .tc := ⟨.hbm, 46, rfl⟩
abbrev main_call1_v6 : Ref sig .tc := ⟨.hbm, 47, rfl⟩
abbrev main_call1_v7 : Ref sig .tc := ⟨.hbm, 48, rfl⟩
abbrev main_call1_v8 : Ref sig .tc := ⟨.hbm, 49, rfl⟩
abbrev main_call1_v9 : Ref sig .tc := ⟨.hbm, 50, rfl⟩
abbrev main_call1_v10 : Ref sig .tc := ⟨.hbm, 51, rfl⟩
abbrev main_call1_v11 : Ref sig .tc := ⟨.hbm, 52, rfl⟩
abbrev main_call1_c_3 : Ref sig .tc := ⟨.hbm, 53, rfl⟩
abbrev main_call1_v12 : Ref sig .tc := ⟨.hbm, 54, rfl⟩
abbrev main_call1_v13 : Ref sig .tc := ⟨.hbm, 55, rfl⟩
abbrev main_call1_v14 : Ref sig .tc := ⟨.hbm, 56, rfl⟩
abbrev main_call1_cst : Ref sig .tc := ⟨.hbm, 57, rfl⟩
abbrev main_call1_v15 : Ref sig .tc := ⟨.hbm, 58, rfl⟩
abbrev main_v5 : Ref sig .tc := ⟨.hbm, 59, rfl⟩
abbrev main_v6 : Ref sig .tc := ⟨.hbm, 60, rfl⟩
abbrev main_v7 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_cst : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3200x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S3200x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S5000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x128_0 : S800000.BroadcastsInDim S800000x128 (![0] : Fin 1 → Fin S800000x128.rank)
  bcast_S_S800000x128 : S_.BroadcastsInDim S800000x128 (![] : Fin 0 → Fin S800000x128.rank)
  shapeCasts_S128_S1x128 : S128.ShapeCasts S1x128
  slices_S256x128_S128x128_0_0 : S256x128.Slices ![0, 0] S128x128
  slices_S256x128_S128x128_128_0 : S256x128.Slices ![128, 0] S128x128
  inb_S3200x128_S3200x128_0_0 : ∀ a, (![0, 0] : Fin 2 → Nat) a + S3200x128.size a ≤ S3200x128.size a
  h_S3200x128 : 0 < S3200x128.numel
  shapeCasts_S3200x128_S3200x128 : S3200x128.ShapeCasts S3200x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S3200x128 : S1x128.Broadcasts S3200x128
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  broadcasts_S1x128_S5000x128 : S1x128.Broadcasts S5000x128
  gather_S50000x128_S800000x1_S800000x128_1_0_n_n_0_1_1128_wf : GatherDims.WF S50000x128 S800000x1 S800000x128 [1] [0] [] [0] [] 1 ![1, 128]
  dot_S3200x128_S128x128_S3200x128_1_0_0_1_n_n_wf : DotDims.WF S3200x128 S128x128 S3200x128 [1] [0] [0] [1] [] []
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x128.size a ≤ S800000x128.size a
  hwx0_0 : ∀ i : grid0.Coords, EltTy.bits .f32 = 32 ∨ (Rect.block (s := S800000x128) S3200x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x128.size a ≤ S800000x128.size a
  hwx0_1 : ∀ i : grid0.Coords, EltTy.bits .f32 = 32 ∨ (Rect.block (s := S800000x128) S3200x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S3200x128.size a ≤ S800000x128.size a
  hwx0_7 : ∀ i : grid0.Coords, EltTy.bits .f32 = 32 ∨ (Rect.block (s := S800000x128) S3200x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S5000x128.size a ≤ S50000x128.size a
  hwx1_7 : ∀ i : grid1.Coords, EltTy.bits .f32 = 32 ∨ (Rect.block (s := S50000x128) S5000x128.size (cc1_transform_7 i) (hinb1_7 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S3200x128_S128x128_S3200x128_1_0_0_1_n_n : DotDims S3200x128 S128x128 S3200x128 where
  lhsContracting := [1]
  rhsContracting := [0]
  lhsNonContracting := [0]
  rhsNonContracting := [1]
  lhsBatch := []
  rhsBatch := []
  wf := dot_S3200x128_S128x128_S3200x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v4) S3200x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S3200x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S3200x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v17) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v14) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v15) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v18) S5000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S256x128 : Shape := ⟨2, ![256, 128]⟩
abbrev S128 : Shape := ⟨1, ![128]⟩
abbrev S128x128 : Shape := ⟨2, ![128, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S800000x256 : Shape := ⟨2, ![800000, 256]⟩
abbrev S1x128 : Shape := ⟨2, ![1, 128]⟩
abbrev S50000x256 : Shape := ⟨2, ![50000, 256]⟩

abbrev nBuf : Space → Nat
  | .hbm => 82
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S1x800000, .i32⟩
  | .hbm, ⟨11, _⟩ => ⟨S800000, .i32⟩
  | .hbm, ⟨12, _⟩ => ⟨S1x800000, .i32⟩
  | .hbm, ⟨13, _⟩ => ⟨S800000, .i32⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x128, .f32⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x128, .f32⟩
  | .hbm, ⟨32, _⟩ => ⟨S800000x256, .f32⟩
  | .hbm, ⟨33, _⟩ => ⟨S800000x128, .f32⟩
  | .hbm, ⟨34, _⟩ => ⟨S1x128, .f32⟩
  | .hbm, ⟨35, _⟩ => ⟨S800000x128, .f32⟩
  | .hbm, ⟨36, _⟩ => ⟨S800000x128, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S800000x128, .f32⟩
  | .hbm, ⟨41, _⟩ => ⟨S800000x128, .f32⟩
  | .hbm, ⟨42, _⟩ => ⟨S_, .f32⟩
  | .hbm, ⟨43, _⟩ => ⟨S800000x128, .f32⟩
  | .hbm, ⟨44, _⟩ => ⟨S800000x128, .f32⟩
  | .hbm, ⟨45, _⟩ => ⟨S800000x128, .f32⟩
  | .hbm, ⟨46, _⟩ => ⟨S800000x128, .f32⟩
  | .hbm, ⟨47, _⟩ => ⟨S1x128, .f32⟩
  | .hbm, ⟨48, _⟩ => ⟨S800000x128, .f32⟩
  | .hbm, ⟨49, _⟩ => ⟨S800000x128, .f32⟩
  | .hbm, ⟨50, _⟩ => ⟨S800000x128, .f32⟩
  | .hbm, ⟨51, _⟩ => ⟨S800000x128, .f32⟩
  | .hbm, ⟨52, _⟩ => ⟨S_, .f32⟩
  | .hbm, ⟨53, _⟩ => ⟨S800000x128, .f32⟩
  | .hbm, ⟨54, _⟩ => ⟨S800000x128, .f32⟩
  | .hbm, ⟨55, _⟩ => ⟨S_, .f32⟩
  | .hbm, ⟨56, _⟩ => ⟨S800000x128, .f32⟩
  | .hbm, ⟨57, _⟩ => ⟨S800000x128, .f32⟩
  | .hbm, ⟨58, _⟩ => ⟨S800000x128, .f32⟩
  | .hbm, ⟨59, _⟩ => ⟨S_, .f32⟩
  | .hbm, ⟨60, _⟩ => ⟨S50000x128, .f32⟩
  | .hbm, ⟨61, _⟩ => ⟨S800000x1, .i32⟩
  | .hbm, ⟨62, _⟩ => ⟨S50000x128, .f32⟩
  | .hbm, ⟨63, _⟩ => ⟨S50000x256, .f32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S50000x128, .f32⟩
  | .hbm, ⟨69, _⟩ => ⟨S50000x128, .f32⟩
  | .hbm, ⟨70, _⟩ => ⟨S_, .f32⟩
  | .hbm, ⟨71, _⟩ => ⟨S50000x128, .f32⟩
  | .hbm, ⟨72, _⟩ => ⟨S50000x128, .f32⟩
  | .hbm, ⟨73, _⟩ => ⟨S_, .f32⟩
  | .hbm, ⟨74, _⟩ => ⟨S50000x128, .f32⟩
  | .hbm, ⟨75, _⟩ => ⟨S50000x128, .f32⟩
  | .hbm, ⟨76, _⟩ => ⟨S50000x128, .f32⟩
  | .hbm, ⟨77, _⟩ => ⟨S50000x128, .f32⟩
  | .hbm, ⟨78, _⟩ => ⟨S1x128, .f32⟩
  | .hbm, ⟨79, _⟩ => ⟨S50000x128, .f32⟩
  | .hbm, ⟨80, _⟩ => ⟨S50000x128, .f32⟩
  | .hbm, ⟨81, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_1 : Ref sig .tc := ⟨.hbm, 23, rfl⟩
abbrev main_v11 : Ref sig .tc := ⟨.hbm, 24, rfl⟩
abbrev main_v12 : Ref sig .tc := ⟨.hbm, 25, rfl⟩
abbrev main_c_2 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_call0_v0 : Ref sig .tc := ⟨.hbm, 37, rfl⟩
abbrev main_call0_v1 : Ref sig .tc := ⟨.hbm, 38, rfl⟩
abbrev main_call0_cst : Ref sig .tc := ⟨.hbm, 39, rfl⟩
abbrev main_call0_v2 : Ref sig .tc := ⟨.hbm, 40, rfl⟩
abbrev main_call0_v3 : Ref sig .tc := ⟨.hbm, 41, rfl⟩
abbrev main_call0_cst_0 : Ref sig .tc := ⟨.hbm, 42, rfl⟩
abbrev main_call0_v4 : Ref sig .tc := ⟨.hbm, 43, rfl⟩
abbrev main_call0_v5 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_call1_v0 : Ref sig .tc := ⟨.hbm, 50, rfl⟩
abbrev main_call1_v1 : Ref sig .tc := ⟨.hbm, 51, rfl⟩
abbrev main_call1_cst : Ref sig .tc := ⟨.hbm, 52, rfl⟩
abbrev main_call1_v2 : Ref sig .tc := ⟨.hbm, 53, rfl⟩
abbrev main_call1_v3 : Ref sig .tc := ⟨.hbm, 54, rfl⟩
abbrev main_call1_cst_0 : Ref sig .tc := ⟨.hbm, 55, rfl⟩
abbrev main_call1_v4 : Ref sig .tc := ⟨.hbm, 56, rfl⟩
abbrev main_call1_v5 : Ref sig .tc := ⟨.hbm, 57, rfl⟩
abbrev main_v28 : Ref sig .tc := ⟨.hbm, 58, rfl⟩
abbrev main_cst : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call2_v0 : Ref sig .tc := ⟨.hbm, 68, rfl⟩
abbrev main_call2_v1 : Ref sig .tc := ⟨.hbm, 69, rfl⟩
abbrev main_call2_cst : Ref sig .tc := ⟨.hbm, 70, rfl⟩
abbrev main_call2_v2 : Ref sig .tc := ⟨.hbm, 71, rfl⟩
abbrev main_call2_v3 : Ref sig .tc := ⟨.hbm, 72, rfl⟩
abbrev main_call2_cst_0 : Ref sig .tc := ⟨.hbm, 73, rfl⟩
abbrev main_call2_v4 : Ref sig .tc := ⟨.hbm, 74, rfl⟩
abbrev main_call2_v5 : Ref sig .tc := ⟨.hbm, 75, rfl⟩
abbrev main_v37 : Ref sig .tc := ⟨.hbm, 76, rfl⟩
abbrev main_v38 : Ref sig .tc := ⟨.hbm, 77, rfl⟩
abbrev main_v39 : Ref sig .tc := ⟨.hbm, 78, rfl⟩
abbrev main_v40 : Ref sig .tc := ⟨.hbm, 79, rfl⟩
abbrev main_v41 : Ref sig .tc := ⟨.hbm, 80, rfl⟩
abbrev main_v42 : Ref sig .tc := ⟨.hbm, 81, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x128_S800000x128_S800000x256_d1 : Shape.Concatenates [S800000x128, S800000x128] S800000x256 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x128_S50000x128_S50000x256_d1 : Shape.Concatenates [S50000x128, S50000x128] S50000x256 1
  bcast_S1x128_S50000x128_0_1 : S1x128.BroadcastsInDim S50000x128 (![0, 1] : Fin 2 → Fin S50000x128.rank)
  gather_S50000x128_S800000x1_S800000x128_1_0_n_n_0_1_1128_wf : GatherDims.WF S50000x128 S800000x1 S800000x128 [1] [0] [] [0] [] 1 ![1, 128]
  dot_S800000x256_S256x128_S800000x128_1_0_0_1_n_n_wf : DotDims.WF S800000x256 S256x128 S800000x128 [1] [0] [0] [1] [] []
  dot_S800000x128_S128x128_S800000x128_1_0_0_1_n_n_wf : DotDims.WF S800000x128 S128x128 S800000x128 [1] [0] [0] [1] [] []
  scatter_S50000x128_S800000x1_S800000x128_1_0_0_1_wf : ScatterDims.WF S50000x128 S800000x1 S800000x128 [1] [0] [0] 1
  dot_S50000x256_S256x128_S50000x128_1_0_0_1_n_n_wf : DotDims.WF S50000x256 S256x128 S50000x128 [1] [0] [0] [1] [] []
  dot_S50000x128_S128x128_S50000x128_1_0_0_1_n_n_wf : DotDims.WF S50000x128 S128x128 S50000x128 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def dot_S800000x256_S256x128_S800000x128_1_0_0_1_n_n : DotDims S800000x256 S256x128 S800000x128 where
  lhsContracting := [1]
  rhsContracting := [0]
  lhsNonContracting := [0]
  rhsNonContracting := [1]
  lhsBatch := []
  rhsBatch := []
  wf := dot_S800000x256_S256x128_S800000x128_1_0_0_1_n_n_wf
def dot_S800000x128_S128x128_S800000x128_1_0_0_1_n_n : DotDims S800000x128 S128x128 S800000x128 where
  lhsContracting := [1]
  rhsContracting := [0]
  lhsNonContracting := [0]
  rhsNonContracting := [1]
  lhsBatch := []
  rhsBatch := []
  wf := dot_S800000x128_S128x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf

class Facts : Prop extends Facts₀ where

variable [Facts]
-- ==== Proof.Take.lean ====
/-
  The kernel program's row lookup (take along the first axis, filling out-of-range rows): a negative index is wrapped once by the table's height,
  the row is gathered at the wrapped index, and a row whose wrapped index is outside [0, 49999] is replaced by a fill
  value. Where every index is in [0, 50000) nothing is wrapped and nothing is filled: the lookup is the plain gather.
-/
import proofs.«408699_j67018669687401_1_alg».proof.Proof.Gen.KernelIdeal
import Idealize.ShloMosaic.Lib.ValueIdx
import Idealize.ShloMosaic.Lib.Pipeline.Value
import Idealize.ShloMosaic.Lib.StableHlo.Predicate
import Idealize.ShloMosaic.Lib.ReduceAll

set_option maxRecDepth 16384

noncomputable section

open scoped BigOperators

namespace Cert.KernelIdeal.Take

open Cert.KernelIdeal Cert.KernelIdeal.Gen Idealize.ShloMosaic Idealize.ShloMosaic.TcCoe Idealize.ShloMosaic.ValueIdx Idealize.SL.Sem

variable {F : FTy → Type} [FloatOps F]

/-- An index vector with its negative entries moved up by the table's height. -/
def wrapIdx (r : IVec S800000 32) : IVec S800000 32 :=
  select (cmpi .slt r (broadcastInDim S800000 ![] bcast_S_S800000 (constantI S_ 32 0#32)))
    (addi r (broadcastInDim S800000 ![] bcast_S_S800000 (constantI S_ 32 50000#32))) r

/-- The wrapped indices as the gather's column of start indices. -/
def startCol (r : IVec S800000 32) : IVec S800000x1 32 := broadcastInDim S800000x1 ![0] bcast_S800000_S800000x1_0 (wrapIdx r)

/-- Per looked-up row: is its wrapped index inside [0, 49999]? -/
def inRange (r : IVec S800000 32) : IVec S800000 1 :=
  Host.reduce IntOp.andi
    (andi (cmpi .sge (startCol r) (broadcastInDim S800000x1 ![] bcast_S_S800000x1 (constantI S_ 32 0#32)))
      (cmpi .sle (startCol r) (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- The lookup with its fill. -/
def takeFill (h : FVec F S50000x128 .f32) (r : IVec S800000 32) : FVec F S800000x128 .f32 :=
  select (broadcastInDim S800000x128 ![0] bcast_S800000_S800000x128_0 (inRange r))
    (Host.gather gather_S50000x128_S800000x1_S800000x128_1_0_n_n_0_1_1128 h (startCol r))
    (broadcastInDim S800000x128 ![] bcast_S_S800000x128 (constant S_ .f32 0x7FC00000#32))

/-! ### Words: a signed index in [0, 50000) is neither wrapped nor filled -/

/-- A word that is at least 0 (signed) is not below 0. -/
theorem slt_zero_of_sge (w : BitVec 32) (h0 : IntOp.cmpi .sge w 0#32 = 1#1) : IntOp.cmpi .slt w 0#32 = 0#1 := by
  refine ValueIdx.eq_zero_of_ne_one fun hlt => ?_
  rw [IntOp.cmpi_sge] at h0
  rw [IntOp.cmpi_slt] at hlt
  omega

/-- The wrap leaves a nonnegative word alone. -/
theorem wrap_of_sge (w : BitVec 32) (h0 : IntOp.cmpi .sge w 0#32 = 1#1) :
    Scalar.select (IntOp.cmpi .slt w 0#32) (IntOp.addi w 50000#32) w = w := by
  rw [slt_zero_of_sge w h0, ValueIdx.select_zero]

/-- A word in [0, 50000) passes the range test 0 ≤ w ≤ 49999. -/
theorem test_of_range (w : BitVec 32) (h0 : IntOp.cmpi .sge w 0#32 = 1#1) (h1 : IntOp.cmpi .slt w 50000#32 = 1#1) :
    IntOp.andi (IntOp.cmpi .sge w 0#32) (IntOp.cmpi .sle w 49999#32) = 1#1 := by
  rw [IntOp.andi_eq_one]
  refine ⟨h0, ?_⟩
  rw [IntOp.cmpi_slt] at h1
  rw [IntOp.cmpi_sle]
  have e1 : (50000#32).toInt = 50000 := by decide
  have e2 : (49999#32).toInt = 49999 := by decide
  omega

/-! ### A reduction by "and" over ones -/

/-- A left fold by "and" from 1 over a list whose members are all 1 is 1. -/
theorem foldl_andi_ones {ι : Type} (f : ι → BitVec 1) :
    ∀ l : List ι, (∀ n ∈ l, f n = 1#1) → l.foldl (fun r n => IntOp.andi r (f n)) 1#1 = 1#1
  | [], _ => rfl
  | a :: l, hl => by
    have h11 : IntOp.andi 1#1 1#1 = 1#1 := by decide
    rw [List.foldl_cons, hl a List.mem_cons_self, h11]
    exact foldl_andi_ones f l fun n hn => hl n (List.mem_cons_of_mem _ hn)

/-- A reduce by "and" whose initial value and operand are all 1 is 1 at every result index. -/
theorem reduce_andi_ones {s t u : Shape} {axes : List (Fin s.rank)} (x : s.Idx → BitVec 1) (init : u.Idx → BitVec 1)
    (h : s.ReducesTo axes t) (hu : 0 < u.numel) (hinit : ∀ k, init k = 1#1) (hx : ∀ k, x k = 1#1) (j : t.Idx) :
    Host.reduce IntOp.andi x init h hu j = 1#1 := by
  rw [Host.reduce_eq_foldl, hinit]
  exact foldl_andi_ones x _ fun n _ => hx n

/-! ### The lookup -/

/-- With every index at least 0 the wrapped index vector is the index vector. -/
theorem wrapIdx_apply (r : IVec S800000 32) (hr : ∀ i, IntOp.cmpi .sge (r i) 0#32 = 1#1 ∧ IntOp.cmpi .slt (r i) 50000#32 = 1#1)
    (e : S800000.Idx) : wrapIdx r e = r e :=
  wrap_of_sge (r e) (hr e).1

/-- With every index in [0, 50000) every looked-up row is in range. -/
theorem inRange_eq_one (r : IVec S800000 32) (hr : ∀ i, IntOp.cmpi .sge (r i) 0#32 = 1#1 ∧ IntOp.cmpi .slt (r i) 50000#32 = 1#1)
    (e : S800000.Idx) : inRange r e = 1#1 := by
  unfold inRange
  refine reduce_andi_ones _ _ _ _ (fun _ => rfl) (fun k => ?_) e
  -- the test at one entry of the start column: both comparisons of the wrapped index of that entry's row
  show IntOp.andi (IntOp.cmpi .sge (wrapIdx r _) 0#32) (IntOp.cmpi .sle (wrapIdx r _) 49999#32) = 1#1
  rw [wrapIdx_apply r hr]
  exact test_of_range _ (hr _).1 (hr _).2

/-- With every index in [0, 50000) no row is filled. -/
theorem takeFill_eq_gather (h : FVec F S50000x128 .f32) (r : IVec S800000 32)
    (hr : ∀ i, IntOp.cmpi .sge (r i) 0#32 = 1#1 ∧ IntOp.cmpi .slt (r i) 50000#32 = 1#1) :
    takeFill h r = Host.gather gather_S50000x128_S800000x1_S800000x128_1_0_n_n_0_1_1128 h (startCol r) := by
  unfold takeFill
  funext i
  rw [ValueIdx.select_apply]
  -- the mask at (row, column) is the row's range bit, which is 1
  have hm : broadcastInDim S800000x128 ![0] bcast_S800000_S800000x128_0 (inRange r) i = 1#1 := inRange_eq_one r hr _
  rw [hm, ValueIdx.select_one]

end Cert.KernelIdeal.Take

end
-- ==== Proof.Spec.lean ====
/-
  What the two programs compute, as plain formulas over the extended reals.

  A graph layer: every edge e = (row e, col e) sends the message
      msg e = silu (W2ᵀ · silu (W1rᵀ · h[row e] + W1cᵀ · h[col e] + b1) + b2),
  every node n sums the messages of the edges whose source is n, and the node update is
      out n = h[n] + (V2ᵀ · silu (V1hᵀ · h[n] + V1aᵀ · agg[n] + c1) + c2).
  Both stages are row-local: row r of the result reads row r of the two row-indexed operands and the whole of the
  weights. `hidden` and `second` are the two layers of that one-row function; `edgeArr` and `nodeArr` apply them to every row of an array with any
  number of rows, so a block of rows of the result is the same function of the same block of rows of the operands.

  The weight matrix of the first layer has 256 input rows; the upper 128 meet the first operand and the lower 128 the
  second: a sum over 256 = 128 + 128 terms is the sum of its two halves (`sum_halves`).
-/
import Idealize.ShloMosaic.PureOps.Ideal
import Idealize.ShloMosaic.Lib.ValueIdx

noncomputable section

open scoped BigOperators

namespace Cert.Gnn

open Idealize.ShloMosaic Idealize.ShloMosaic.ValueIdx

/-- A rank-2 array of extended reals. -/
abbrev Arr (n k : Nat) : Type := (⟨2, ![n, k]⟩ : Shape).Idx → EReal

/-- A rank-1 array of extended reals. -/
abbrev Arr1 (n : Nat) : Type := (⟨1, ![n]⟩ : Shape).Idx → EReal

/-- x · σ(x), σ the logistic function. -/
def silu (x : EReal) : EReal := x * Ideal.logistic x

/-- Unit k of the hidden layer, from one row of each of the two operands. -/
def hidden (r a : Fin 128 → EReal) (wr wa : Arr 128 128) (b : Arr 1 128) (k : Fin 128) : EReal :=
  silu (((∑ k' : Fin 128, r k' * wr (ix2 k' k)) + ∑ k' : Fin 128, a k' * wa (ix2 k' k)) + b (ix2 0 k))

/-- Output q of the second (linear) layer over a hidden row. -/
def second (hd : Fin 128 → EReal) (w2 : Arr 128 128) (b2 : Arr 1 128) (q : Fin 128) : EReal :=
  (∑ k : Fin 128, hd k * w2 (ix2 k q)) + b2 (ix2 0 q)

/-- Row r of an array, as a function of the column. -/
abbrev rowOf {n : Nat} (x : Arr n 128) (r : Fin n) : Fin 128 → EReal := fun k => x (ix2 r k)

/-- The edge network applied to every row. -/
def edgeArr {n : Nat} (rh ch : Arr n 128) (wr wc : Arr 128 128) (b1 : Arr 1 128) (w2 : Arr 128 128) (b2 : Arr 1 128) : Arr n 128 :=
  fun i => silu (second (hidden (rowOf rh (i 0)) (rowOf ch (i 0)) wr wc b1) w2 b2 (i 1))

/-- The node network, with its residual, applied to every row. -/
def nodeArr {n : Nat} (h agg : Arr n 128) (wh wa : Arr 128 128) (b1 : Arr 1 128) (w2 : Arr 128 128) (b2 : Arr 1 128) : Arr n 128 :=
  fun i => h i + second (hidden (rowOf h (i 0)) (rowOf agg (i 0)) wh wa b1) w2 b2 (i 1)

/-- Rows 0..127 of a [256,128] matrix. -/
def topHalf (w : Arr 256 128) : Arr 128 128 := fun i => w (ix2 ⟨(i 0).val, by have := idx2_lt0 i; omega⟩ (i 1))

/-- Rows 128..255 of a [256,128] matrix. -/
def botHalf (w : Arr 256 128) : Arr 128 128 := fun i => w (ix2 ⟨(i 0).val + 128, by have := idx2_lt0 i; omega⟩ (i 1))

/-- A vector as a one-row matrix. -/
def asRow (b : Arr1 128) : Arr 1 128 := fun i => b (ix1 (i 1))

/-- Row-locality of the edge network: it reads only the row it writes. -/
theorem edgeArr_row {n n' : Nat} (rh ch : Arr n 128) (rh' ch' : Arr n' 128) (wr wc : Arr 128 128) (b1 : Arr 1 128) (w2 : Arr 128 128)
    (b2 : Arr 1 128) (r : Fin n) (r' : Fin n') (q : Fin 128) (h1 : ∀ k, rh (ix2 r k) = rh' (ix2 r' k)) (h2 : ∀ k, ch (ix2 r k) = ch' (ix2 r' k)) :
    edgeArr rh ch wr wc b1 w2 b2 (ix2 r q) = edgeArr rh' ch' wr wc b1 w2 b2 (ix2 r' q) := by
  unfold edgeArr
  have e1 : rowOf rh r = rowOf rh' r' := funext h1
  have e2 : rowOf ch r = rowOf ch' r' := funext h2
  show silu (second (hidden (rowOf rh r) (rowOf ch r) wr wc b1) w2 b2 q) = silu (second (hidden (rowOf rh' r') (rowOf ch' r') wr wc b1) w2 b2 q)
  rw [e1, e2]

/-- Row-locality of the node network. -/
theorem nodeArr_row {n n' : Nat} (h agg : Arr n 128) (h' agg' : Arr n' 128) (wh wa : Arr 128 128) (b1 : Arr 1 128) (w2 : Arr 128 128)
    (b2 : Arr 1 128) (r : Fin n) (r' : Fin n') (q : Fin 128) (h1 : ∀ k, h (ix2 r k) = h' (ix2 r' k)) (h2 : ∀ k, agg (ix2 r k) = agg' (ix2 r' k)) :
    nodeArr h agg wh wa b1 w2 b2 (ix2 r q) = nodeArr h' agg' wh wa b1 w2 b2 (ix2 r' q) := by
  unfold nodeArr
  have e1 : rowOf h r = rowOf h' r' := funext h1
  have e2 : rowOf agg r = rowOf agg' r' := funext h2
  show h (ix2 r q) + second (hidden (rowOf h r) (rowOf agg r) wh wa b1) w2 b2 q = h' (ix2 r' q) + second (hidden (rowOf h' r') (rowOf agg' r') wh wa b1) w2 b2 q
  rw [e1, e2, h1 q]

/-- A sum over 256 terms is the sum of its first 128 and its last 128. -/
theorem sum_halves (f : Fin 256 → EReal) :
    ∑ k : Fin 256, f k = (∑ k : Fin 128, f ⟨k.val, by omega⟩) + ∑ k : Fin 128, f ⟨k.val + 128, by omega⟩ := by
  have h := Fin.sum_univ_add (M := EReal) (a := 128) (b := 128) (fun k : Fin (128 + 128) => f ⟨k.val, by omega⟩)
  refine Eq.trans ?_ (h.trans ?_)
  · rfl
  · congr 1

end Cert.Gnn

end
-- ==== Proof.EdgeBody.lean ====
/-
  The edge kernel's body, read at the ideal instance: the block it stores is the edge network (Spec.lean's
  `edgeArr`) of the seven blocks it loads.

  At the ideal instance a change of float format is the identity and a product accumulated into zero is the plain sum
  over the contracted axis. So entry (p, q) of the stored block is
      silu ((∑ k, H k · W2 (k, q)) + b2 (0, q)),   H k = silu ((∑ k', R (p, k') · Wr (k', k)) + (∑ k', C (p, k') · Wc (k', k)) + b1 (0, k)),
  which is the edge network's row p at column q.
-/
import proofs.«408699_j67018669687401_1_alg».proof.Proof.Gen.KernelIdeal.Skeleton
import proofs.«408699_j67018669687401_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.EdgeBody

open Cert.KernelIdeal Cert.KernelIdeal.Gen Idealize.ShloMosaic Idealize.ShloMosaic.TcCoe Idealize.ShloMosaic.ValueIdx Idealize.SL.Sem

/-! ## The contraction's operand indices, axis by axis

The product contracts the left operand's axis 1 with the right operand's axis 0: at output index i and contraction
coordinate c the left operand is read at (i 0, c) and the right at (c, i 1). -/

/-- The left operand's row is the output's row. -/
theorem lhs_0 (i : S3200x128.Idx) (c : dot_S3200x128_S128x128_S3200x128_1_0_0_1_n_n.contr.Idx) :
    (dot_S3200x128_S128x128_S3200x128_1_0_0_1_n_n.lhsIdx i c 0).val = (i 0).val := by
  unfold DotDims.lhsIdx
  rw [dif_neg (show ¬(0 : Fin S3200x128.rank) ∈ dot_S3200x128_S128x128_S3200x128_1_0_0_1_n_n.lhsBatch by decide), dif_pos (show (0 : Fin S3200x128.rank) ∈ dot_S3200x128_S128x128_S3200x128_1_0_0_1_n_n.lhsNonContracting by decide)]
  rfl

/-- The left operand's column is the contraction coordinate. -/
theorem lhs_1 (i : S3200x128.Idx) (c : dot_S3200x128_S128x128_S3200x128_1_0_0_1_n_n.contr.Idx) :
    (dot_S3200x128_S128x128_S3200x128_1_0_0_1_n_n.lhsIdx i c 1).val = (c ⟨0, by decide⟩).val :=
  dot_S3200x128_S128x128_S3200x128_1_0_0_1_n_n.lhsIdx_val_of_single rfl i c

/-- The right operand's row is the contraction coordinate. -/
theorem rhs_0 (i : S3200x128.Idx) (c : dot_S3200x128_S128x128_S3200x128_1_0_0_1_n_n.contr.Idx) :
    (dot_S3200x128_S128x128_S3200x128_1_0_0_1_n_n.rhsIdx i c 0).val = (c ⟨0, by decide⟩).val :=
  dot_S3200x128_S128x128_S3200x128_1_0_0_1_n_n.rhsIdx_val_of_single rfl i c

/-- The right operand's column is the output's column. -/
theorem rhs_1 (i : S3200x128.Idx) (c : dot_S3200x128_S128x128_S3200x128_1_0_0_1_n_n.contr.Idx) :
    (dot_S3200x128_S128x128_S3200x128_1_0_0_1_n_n.rhsIdx i c 1).val = (i 1).val := by
  unfold DotDims.rhsIdx
  rw [dif_neg (show ¬(1 : Fin S128x128.rank) ∈ dot_S3200x128_S128x128_S3200x128_1_0_0_1_n_n.rhsBatch by decide), dif_pos (show (1 : Fin S128x128.rank) ∈ dot_S3200x128_S128x128_S3200x128_1_0_0_1_n_n.rhsNonContracting by decide)]
  rfl

/-! ## The three non-pointwise operations at an entry -/

/-- A [3200,128] block times a [128,128] matrix, accumulated into zero: entry (p, q) is ∑ k, a (p, k) · b (k, q). -/
theorem matmul_zero_at (a : FVec Ideal S3200x128 .bf16) (b : FVec Ideal S128x128 .bf16) (p : Fin 3200) (q : Fin 128) :
    matmul (F := Ideal) dot_S3200x128_S128x128_S3200x128_1_0_0_1_n_n none a b (constant (F := Ideal) S3200x128 .f32 0x00000000#32) (ix2 p q)
      = ∑ k : Fin 128, a (ix2 p k) * b (ix2 k q) := by
  simp only [matmul]
  rw [Ideal.matmul_constant_zero_apply, ← Equiv.sum_comp (contrEquiv1 dot_S3200x128_S128x128_S3200x128_1_0_0_1_n_n 128 rfl rfl).symm]
  refine Finset.sum_congr rfl fun k _ => ?_
  have hk := contrEquiv1_symm_val dot_S3200x128_S128x128_S3200x128_1_0_0_1_n_n 128 rfl rfl k
  have el : dot_S3200x128_S128x128_S3200x128_1_0_0_1_n_n.lhsIdx (ix2 p q) ((contrEquiv1 dot_S3200x128_S128x128_S3200x128_1_0_0_1_n_n 128 rfl rfl).symm k) = ix2 p k := funext fun d => Fin.ext (by
    match d with
    | ⟨0, _⟩ => exact lhs_0 _ _
    | ⟨1, _⟩ => exact (lhs_1 _ _).trans hk)
  have er : dot_S3200x128_S128x128_S3200x128_1_0_0_1_n_n.rhsIdx (ix2 p q) ((contrEquiv1 dot_S3200x128_S128x128_S3200x128_1_0_0_1_n_n 128 rfl rfl).symm k) = ix2 k q := funext fun d => Fin.ext (by
    match d with
    | ⟨0, _⟩ => exact (rhs_0 _ _).trans hk
    | ⟨1, _⟩ => exact rhs_1 _ _)
  rw [el, er]

/-- A one-row matrix spread over 3200 rows reads its single row in every row. -/
theorem row_spread_at (x : FVec Ideal S1x128 .f32) (p : Fin 3200) (q : Fin 128) :
    broadcastTo S3200x128 x broadcasts_S1x128_S3200x128 (ix2 p q) = x (ix2 0 q) := by
  refine broadcastTo_apply x broadcasts_S1x128_S3200x128 (ix2 p q) (ix2 0 q) fun d => ?_
  match d with
  | ⟨0, _⟩ => show (0 : Nat) = if (1 : Nat) = 1 then 0 else _; rw [if_pos rfl]
  | ⟨1, _⟩ => show q.val = if (128 : Nat) = 1 then 0 else q.val; rw [if_neg (by decide)]

/-- The logistic of a block is taken entry by entry. -/
theorem logistic_at {s : Shape} {φ : FTy} (a : FVec Ideal s φ) (i : s.Idx) : logistic a i = Ideal.logistic (a i) := rfl

/-! ## The body -/

/-- The stored block is the edge network of the loaded blocks, row by row. -/
theorem edge_payload (x0 x1 : Vec Ideal S3200x128 .f32) (x2 x3 : Vec Ideal S128x128 .f32) (x4 : Vec Ideal S1x128 .f32) (x5 : Vec Ideal S128x128 .f32) (x6 : Vec Ideal S1x128 .f32) :
    k0_pay1 (F := Ideal) x0 x1 x2 x3 x4 x5 x6 = Cert.Gnn.edgeArr x0 x1 x2 x3 x4 x5 x6 := by
  funext i
  obtain ⟨p, q, rfl⟩ : ∃ (p : Fin 3200) (q : Fin 128), i = ix2 p q := ⟨i 0, i 1, eq_ix2 i⟩
  -- the edge network at (p, q) reads row p of the two row-indexed operands
  show _ = Cert.Gnn.silu (Cert.Gnn.second (Cert.Gnn.hidden (Cert.Gnn.rowOf x0 p) (Cert.Gnn.rowOf x1 p) x2 x3 x4) x5 x6 q)
  unfold k0_pay1
  -- same-shape casts and format changes are identities; sums, products and the logistic go entry by entry; each product
  -- into zero is the sum over its contracted axis; each spread row reads row 0
  simp only [shapeCast_self, mulf_apply, addf_apply, logistic_at, matmul_zero_at, row_spread_at, truncf_apply]
  unfold Cert.Gnn.silu Cert.Gnn.second Cert.Gnn.hidden
  rfl

end Cert.KernelIdeal.EdgeBody

end
-- ==== Proof.EdgeRegion.lean ====
/-
  The edge kernel's region: 250 grid points, point t working on rows 3200·t … 3200·t + 3199 of the two gathered
  arrays and writing the same rows of the result; the five weight operands are fetched whole at every point. Since the
  edge network is row-local, the array the region leaves is the edge network of the arrays it found.
-/
import proofs.«408699_j67018669687401_1_alg».proof.Proof.Gen.KernelIdeal.Frame
import proofs.«408699_j67018669687401_1_alg».proof.Proof.EdgeBody

set_option maxRecDepth 16384

noncomputable section

open scoped BigOperators

namespace Cert.KernelIdeal.EdgeRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset vector of a rank-2 block. -/
theorem zero_offsets : (![0, 0] : Fin 2 → Nat) = fun _ => 0 := funext fun a => by fin_cases a <;> rfl

/-- Where each window's block sits at point t, for each of the 250 points: the two gathered operands and the result
    move down one block of rows per point, (t, 0); the five weight operands stay at (0, 0). -/
theorem block_indices : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0) :=
  (by decide +kernel : ∀ t : Fin grid0.N, _)

/-- There are 250 points. -/
theorem point_lt (t : Fin cfg0.N) : t.val < 250 := lt_of_lt_of_eq t.isLt (show cfg0.N = 250 from N_0)

/-- Row p of block t is row 3200·t + p of the 800000. -/
theorem row_lt (t : Fin cfg0.N) (p : Fin 3200) : 3200 * t.val + p.val < 800000 := by
  have := point_lt t
  have := p.isLt
  omega

/-- Row p of the first gathered operand's block at point t is row 3200·t + p of that operand. -/
theorem rows_first (c : Dev nD) (t : Fin cfg0.N) (p : Fin 3200) (k : Fin 128) :
    (iblk0 V c 0 t : Vec Ideal S3200x128 .f32) (ix2 p k) = V c main_v4 (ix2 ⟨3200 * t.val + p.val, row_lt t p⟩ k) := by
  obtain ⟨⟨e0, e1⟩, -⟩ := block_indices t
  unfold iblk0
  rw [View.read_apply]
  show V c main_v4 _ = V c main_v4 _
  congr 1
  funext a
  apply Fin.ext
  match a with
  | ⟨0, _⟩ => show win0_0.index t (0 : Fin 2) * 3200 + 1 * p.val = 3200 * t.val + p.val; rw [e0]; omega
  | ⟨1, _⟩ => show win0_0.index t (1 : Fin 2) * 128 + 1 * k.val = k.val; rw [e1]; omega

/-- Row p of the second gathered operand's block at point t is row 3200·t + p of that operand. -/
theorem rows_second (c : Dev nD) (t : Fin cfg0.N) (p : Fin 3200) (k : Fin 128) :
    (iblk0 V c 1 t : Vec Ideal S3200x128 .f32) (ix2 p k) = V c main_v5 (ix2 ⟨3200 * t.val + p.val, row_lt t p⟩ k) := by
  obtain ⟨-, ⟨e0, e1⟩, -⟩ := block_indices t
  unfold iblk0
  rw [View.read_apply]
  show V c main_v5 _ = V c main_v5 _
  congr 1
  funext a
  apply Fin.ext
  match a with
  | ⟨0, _⟩ => show win0_1.index t (0 : Fin 2) * 3200 + 1 * p.val = 3200 * t.val + p.val; rw [e0]; omega
  | ⟨1, _⟩ => show win0_1.index t (1 : Fin 2) * 128 + 1 * k.val = k.val; rw [e1]; omega

/-- The first layer's weights on the first operand are fetched whole at every point. -/
theorem whole_wr (c : Dev nD) (t : Fin cfg0.N) : (iblk0 V c 2 t : Vec Ideal S128x128 .f32) = V c main_v8 := by
  obtain ⟨-, -, ⟨e0, e1⟩, -⟩ := block_indices t
  funext j
  unfold iblk0
  rw [View.read_apply]
  show V c main_v8 _ = V c main_v8 _
  congr 1
  funext a
  apply Fin.ext
  match a with
  | ⟨0, _⟩ => show win0_2.index t (0 : Fin 2) * 128 + 1 * (j 0).val = (j 0).val; rw [e0]; omega
  | ⟨1, _⟩ => show win0_2.index t (1 : Fin 2) * 128 + 1 * (j 1).val = (j 1).val; rw [e1]; omega

/-- The first layer's weights on the second operand are fetched whole at every point. -/
theorem whole_wc (c : Dev nD) (t : Fin cfg0.N) : (iblk0 V c 3 t : Vec Ideal S128x128 .f32) = V c main_v9 := by
  obtain ⟨-, -, -, ⟨e0, e1⟩, -⟩ := block_indices t
  funext j
  unfold iblk0
  rw [View.read_apply]
  show V c main_v9 _ = V c main_v9 _
  congr 1
  funext a
  apply Fin.ext
  match a with
  | ⟨0, _⟩ => show win0_3.index t (0 : Fin 2) * 128 + 1 * (j 0).val = (j 0).val; rw [e0]; omega
  | ⟨1, _⟩ => show win0_3.index t (1 : Fin 2) * 128 + 1 * (j 1).val = (j 1).val; rw [e1]; omega

/-- The first layer's bias row is fetched whole at every point. -/
theorem whole_b1 (c : Dev nD) (t : Fin cfg0.N) : (iblk0 V c 4 t : Vec Ideal S1x128 .f32) = V c main_v6 := by
  obtain ⟨-, -, -, -, ⟨e0, e1⟩, -⟩ := block_indices t
  funext j
  unfold iblk0
  rw [View.read_apply]
  show V c main_v6 _ = V c main_v6 _
  congr 1
  funext a
  apply Fin.ext
  match a with
  | ⟨0, _⟩ => show win0_4.index t (0 : Fin 2) * 1 + 1 * (j 0).val = (j 0).val; rw [e0]; omega
  | ⟨1, _⟩ => show win0_4.index t (1 : Fin 2) * 128 + 1 * (j 1).val = (j 1).val; rw [e1]; omega

/-- The second layer's weights are fetched whole at every point. -/
theorem whole_w2 (c : Dev nD) (t : Fin cfg0.N) : (iblk0 V c 5 t : Vec Ideal S128x128 .f32) = V c main_arg4 := by
  obtain ⟨-, -, -, -, -, ⟨e0, e1⟩, -⟩ := block_indices t
  funext j
  unfold iblk0
  rw [View.read_apply]
  show V c main_arg4 _ = V c main_arg4 _
  congr 1
  funext a
  apply Fin.ext
  match a with
  | ⟨0, _⟩ => show win0_5.index t (0 : Fin 2) * 128 + 1 * (j 0).val = (j 0).val; rw [e0]; omega
  | ⟨1, _⟩ => show win0_5.index t (1 : Fin 2) * 128 + 1 * (j 1).val = (j 1).val; rw [e1]; omega

/-- The second layer's bias row is fetched whole at every point. -/
theorem whole_b2 (c : Dev nD) (t : Fin cfg0.N) : (iblk0 V c 6 t : Vec Ideal S1x128 .f32) = V c main_v7 := by
  obtain ⟨-, -, -, -, -, -, ⟨e0, e1⟩, -⟩ := block_indices t
  funext j
  unfold iblk0
  rw [View.read_apply]
  show V c main_v7 _ = V c main_v7 _
  congr 1
  funext a
  apply Fin.ext
  match a with
  | ⟨0, _⟩ => show win0_6.index t (0 : Fin 2) * 1 + 1 * (j 0).val = (j 0).val; rw [e0]; omega
  | ⟨1, _⟩ => show win0_6.index t (1 : Fin 2) * 128 + 1 * (j 1).val = (j 1).val; rw [e1]; omega

/-- Entry (p, k) of the result's block at point t is entry (3200·t + p, k) of the result. -/
theorem result_row (t : Fin cfg0.N) (p : Fin 3200) (k : Fin 128) :
    ((cfg0.win 7).blk t).view.emb (ix2 p k : S3200x128.Idx) = (ix2 ⟨3200 * t.val + p.val, row_lt t p⟩ k : S800000x128.Idx) := by
  obtain ⟨-, -, -, -, -, -, -, e0, e1⟩ := block_indices t
  funext a
  apply Fin.ext
  match a with
  | ⟨0, _⟩ => show win0_7.index t (0 : Fin 2) * 3200 + 1 * p.val = 3200 * t.val + p.val; rw [e0]; omega
  | ⟨1, _⟩ => show win0_7.index t (1 : Fin 2) * 128 + 1 * k.val = k.val; rw [e1]; omega

/-- What point t writes back is block t of the edge network of the operands as the region found them: the body
    computes the edge network of its seven blocks, the network is row-local, and the blocks are rows
    3200·t … 3200·t + 3199 of the two gathered operands and the whole of the weights. -/
theorem written_block (c : Dev nD) (t : Fin cfg0.N) :
    (dat0 (F := Ideal) V c).flushed 7 t = ((cfg0.win 7).blk t).view.read (Elt Ideal)
      (Cert.Gnn.edgeArr (V c main_v4) (V c main_v5) (V c main_v8) (V c main_v9) (V c main_v6) (V c main_arg4) (V c main_v7)) := by
  show (cfg0.win 7).cut (grid0.coords t) ((dat0 V c).after 7 t) = _
  rw [after0_7]
  unfold out0_7
  rw [View.canon_unit_zero zero_offsets]
  simp only [View.ld_unit_zero (S := S3200x128) zero_offsets, View.ld_unit_zero (S := S128x128) zero_offsets,
    View.ld_unit_zero (S := S1x128) zero_offsets]
  rw [EdgeBody.edge_payload, whole_wr, whole_wc, whole_b1, whole_w2, whole_b2]
  funext j
  obtain ⟨p, k, rfl⟩ : ∃ (p : Fin 3200) (k : Fin 128), j = (ix2 p k : S3200x128.Idx) := ⟨j 0, j 1, eq_ix2 j⟩
  show Cert.Gnn.edgeArr (iblk0 V c 0 t) (iblk0 V c 1 t) (V c main_v8) (V c main_v9) (V c main_v6) (V c main_arg4) (V c main_v7) (ix2 p k)
    = Cert.Gnn.edgeArr (V c main_v4) (V c main_v5) (V c main_v8) (V c main_v9) (V c main_v6) (V c main_arg4) (V c main_v7)
        (((cfg0.win 7).blk t).view.emb (ix2 p k : S3200x128.Idx))
  rw [result_row]
  exact Cert.Gnn.edgeArr_row _ _ _ _ _ _ _ _ _ p ⟨3200 * t.val + p.val, row_lt t p⟩ k (rows_first V c t p) (rows_second V c t p)

/-- An entry of the result is in point t's block iff each coordinate is in the block's range on its axis. -/
theorem mem_block (t : Fin cfg0.N) (i : S800000x128.Idx) :
    i ∈ ((cfg0.win 7).blk t).view.set ↔ ∀ a : Fin 2, win0_7.index t a * S3200x128.size a ≤ (i a).val ∧ (i a).val < win0_7.index t a * S3200x128.size a + S3200x128.size a := by
  show i ∈ ((View.whole main_v10).slice (win0_7.rect t)).set ↔ _
  rw [View.set_slice_whole, Rect.mem_set_unit]
  exact Iff.rfl

/-- Every entry of the result is written back by some point: row r lies in block r / 3200. -/
theorem rows_covered (i : S800000x128.Idx) :
    ∃ t : Fin cfg0.N, (cfg0.win 7).flush t = true ∧ i ∈ ((cfg0.win 7).blk t).view.set := by
  have hi0 : (i 0).val < 800000 := (i 0).isLt
  have hi1 : (i 1).val < 128 := (i 1).isLt
  have ht : (i 0).val / 3200 < cfg0.N := lt_of_lt_of_eq (by omega) (show cfg0.N = 250 from N_0).symm
  obtain ⟨-, -, -, -, -, -, -, e0, e1⟩ := block_indices ⟨(i 0).val / 3200, ht⟩
  have e0' : win0_7.index ⟨(i 0).val / 3200, ht⟩ (0 : Fin 2) = (i 0).val / 3200 := e0
  refine ⟨⟨(i 0).val / 3200, ht⟩, flush0_7 _, ?_⟩
  rw [mem_block]
  intro a
  match a with
  | ⟨0, _⟩ =>
    show win0_7.index ⟨(i 0).val / 3200, ht⟩ (0 : Fin 2) * 3200 ≤ (i 0).val
      ∧ (i 0).val < win0_7.index ⟨(i 0).val / 3200, ht⟩ (0 : Fin 2) * 3200 + 3200
    rw [e0']; omega
  | ⟨1, _⟩ =>
    show win0_7.index ⟨(i 0).val / 3200, ht⟩ (1 : Fin 2) * 128 ≤ (i 1).val
      ∧ (i 1).val < win0_7.index ⟨(i 0).val / 3200, ht⟩ (1 : Fin 2) * 128 + 128
    rw [e1]; omega

/-- The message array after the region: the edge network of the region's operands as it found them. -/
theorem final0 (c : Dev nD) :
    (dat0 (F := Ideal) V c).arrAt 7 cfg0.N
      = Cert.Gnn.edgeArr (V c main_v4) (V c main_v5) (V c main_v8) (V c main_v9) (V c main_v6) (V c main_arg4) (V c main_v7) :=
  (dat0 (F := Ideal) V c).arrAt_eq_of_cover 7
    (Cert.Gnn.edgeArr (V c main_v4) (V c main_v5) (V c main_v8) (V c main_v9) (V c main_v6) (V c main_arg4) (V c main_v7))
    (fun t _ => written_block V c t) rows_covered

end Cert.KernelIdeal.EdgeRegion

end
-- ==== Proof.NodeBody.lean ====
/-
  The node kernel's body, read at the ideal instance: the block it stores is the node network with its residual
  (Spec.lean's `nodeArr`) of the seven blocks it loads.

  At the ideal instance a change of float format is the identity and a product accumulated into zero is the plain sum
  over the contracted axis. So entry (p, q) of the stored block is
      h (p, q) + ((∑ k, H k · V2 (k, q)) + c2 (0, q)),   H k = silu ((∑ k', h (p, k') · Vh (k', k)) + (∑ k', agg (p, k') · Va (k', k)) + c1 (0, k)),
  which is the node network's row p at column q.
-/
import proofs.«408699_j67018669687401_1_alg».proof.Proof.Gen.KernelIdeal.Skeleton
import proofs.«408699_j67018669687401_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.NodeBody

open Cert.KernelIdeal Cert.KernelIdeal.Gen Idealize.ShloMosaic Idealize.ShloMosaic.TcCoe Idealize.ShloMosaic.ValueIdx Idealize.SL.Sem

/-! ## The contraction's operand indices, axis by axis

The product contracts the left operand's axis 1 with the right operand's axis 0: at output index i and contraction
coordinate c the left operand is read at (i 0, c) and the right at (c, i 1). -/

/-- The left operand's row is the output's row. -/
theorem lhs_0 (i : S5000x128.Idx) (c : dot_S5000x128_S128x128_S5000x128_1_0_0_1_n_n.contr.Idx) :
    (dot_S5000x128_S128x128_S5000x128_1_0_0_1_n_n.lhsIdx i c 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl

/-- The left operand's column is the contraction coordinate. -/
theorem lhs_1 (i : S5000x128.Idx) (c : dot_S5000x128_S128x128_S5000x128_1_0_0_1_n_n.contr.Idx) :
    (dot_S5000x128_S128x128_S5000x128_1_0_0_1_n_n.lhsIdx i c 1).val = (c ⟨0, by decide⟩).val :=
  dot_S5000x128_S128x128_S5000x128_1_0_0_1_n_n.lhsIdx_val_of_single rfl i c

/-- The right operand's row is the contraction coordinate. -/
theorem rhs_0 (i : S5000x128.Idx) (c : dot_S5000x128_S128x128_S5000x128_1_0_0_1_n_n.contr.Idx) :
    (dot_S5000x128_S128x128_S5000x128_1_0_0_1_n_n.rhsIdx i c 0).val = (c ⟨0, by decide⟩).val :=
  dot_S5000x128_S128x128_S5000x128_1_0_0_1_n_n.rhsIdx_val_of_single rfl i c

/-- The right operand's column is the output's column. -/
theorem rhs_1 (i : S5000x128.Idx) (c : dot_S5000x128_S128x128_S5000x128_1_0_0_1_n_n.contr.Idx) :
    (dot_S5000x128_S128x128_S5000x128_1_0_0_1_n_n.rhsIdx i c 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## The three non-pointwise operations at an entry -/

/-- A [5000,128] block times a [128,128] matrix, accumulated into zero: entry (p, q) is ∑ k, a (p, k) · b (k, q). -/
theorem matmul_zero_at (a : FVec Ideal S5000x128 .bf16) (b : FVec Ideal S128x128 .bf16) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have el : dot_S5000x128_S128x128_S5000x128_1_0_0_1_n_n.lhsIdx (ix2 p q) ((contrEquiv1 dot_S5000x128_S128x128_S5000x128_1_0_0_1_n_n 128 rfl rfl).symm k) = ix2 p k := funext fun d => Fin.ext (by
    match d with
    | ⟨0, _⟩ => exact lhs_0 _ _
    | ⟨1, _⟩ => exact (lhs_1 _ _).trans hk)
  have er : dot_S5000x128_S128x128_S5000x128_1_0_0_1_n_n.rhsIdx (ix2 p q) ((contrEquiv1 dot_S5000x128_S128x128_S5000x128_1_0_0_1_n_n 128 rfl rfl).symm k) = ix2 k q := funext fun d => Fin.ext (by
    match d with
    | ⟨0, _⟩ => exact (rhs_0 _ _).trans hk
    | ⟨1, _⟩ => exact rhs_1 _ _)
  rw [el, er]

/-- A one-row matrix spread over 5000 rows reads its single row in every row. -/
theorem row_spread_at (x : FVec Ideal S1x128 .f32) (p : Fin 5000) (q : Fin 128) :
    broadcastTo S5000x128 x broadcasts_S1x128_S5000x128 (ix2 p q) = x (ix2 0 q) := by
  refine broadcastTo_apply x broadcasts_S1x128_S5000x128 (ix2 p q) (ix2 0 q) fun d => ?_
  match d with
  | ⟨0, _⟩ => show (0 : Nat) = if (1 : Nat) = 1 then 0 else _; rw [if_pos rfl]
  | ⟨1, _⟩ => show q.val = if (128 : Nat) = 1 then 0 else q.val; rw [if_neg (by decide)]

/-- The logistic of a block is taken entry by entry. -/
theorem logistic_at {s : Shape} {φ : FTy} (a : FVec Ideal s φ) (i : s.Idx) : logistic a i = Ideal.logistic (a i) := rfl

/-! ## The body -/

/-- The stored block is the node network of the loaded blocks, row by row. -/
theorem node_payload (x0 x1 : Vec Ideal S5000x128 .f32) (x2 x3 : Vec Ideal S128x128 .f32) (x4 : Vec Ideal S1x128 .f32) (x5 : Vec Ideal S128x128 .f32) (x6 : Vec Ideal S1x128 .f32) :
    k1_pay1 (F := Ideal) x0 x1 x2 x3 x4 x5 x6 = Cert.Gnn.nodeArr x0 x1 x2 x3 x4 x5 x6 := by
  funext i
  obtain ⟨p, q, rfl⟩ : ∃ (p : Fin 5000) (q : Fin 128), i = ix2 p q := ⟨i 0, i 1, eq_ix2 i⟩
  -- the node network at (p, q): the residual entry plus the second layer over row p's hidden units
  show _ = x0 (ix2 p q) + Cert.Gnn.second (Cert.Gnn.hidden (Cert.Gnn.rowOf x0 p) (Cert.Gnn.rowOf x1 p) x2 x3 x4) x5 x6 q
  unfold k1_pay1
  -- same-shape casts and format changes are identities; sums, products and the logistic go entry by entry; each product
  -- into zero is the sum over its contracted axis; each spread row reads row 0
  simp only [shapeCast_self, mulf_apply, addf_apply, logistic_at, matmul_zero_at, row_spread_at, truncf_apply]
  unfold Cert.Gnn.second Cert.Gnn.hidden Cert.Gnn.silu
  rfl

end Cert.KernelIdeal.NodeBody

end
-- ==== Proof.NodeRegion.lean ====
/-
  The node kernel's region: 10 grid points, point t working on rows 5000·t … 5000·t + 4999 of the node features and of
  the aggregated messages and writing the same rows of the result; the five weight operands are fetched whole at every
  point. The node network is row-local, so the array the region leaves is the node network of the arrays it found.
-/
import proofs.«408699_j67018669687401_1_alg».proof.Proof.Gen.KernelIdeal.Frame
import proofs.«408699_j67018669687401_1_alg».proof.Proof.NodeBody

set_option maxRecDepth 16384

noncomputable section

open scoped BigOperators

namespace Cert.KernelIdeal.NodeRegion

open Cert.KernelIdeal Cert.KernelIdeal.Gen Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

/-- The zero offset vector of a rank-2 block. -/
theorem zero_offsets : (![0, 0] : Fin 2 → Nat) = fun _ => 0 := funext fun a => by fin_cases a <;> rfl

/-- Where each window's block sits at point t, for each of the 10 points: the node features, the aggregated messages
    and the result move down one block of rows per point, (t, 0); the five weight operands stay at (0, 0). -/
theorem block_indices : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = 0 ∧ win1_2.index t (1 : Fin 2) = 0)
    ∧ (win1_3.index t (0 : Fin 2) = 0 ∧ win1_3.index t (1 : Fin 2) = 0)
    ∧ (win1_4.index t (0 : Fin 2) = 0 ∧ win1_4.index t (1 : Fin 2) = 0)
    ∧ (win1_5.index t (0 : Fin 2) = 0 ∧ win1_5.index t (1 : Fin 2) = 0)
    ∧ (win1_6.index t (0 : Fin 2) = 0 ∧ win1_6.index t (1 : Fin 2) = 0)
    ∧ (win1_7.index t (0 : Fin 2) = t.val ∧ win1_7.index t (1 : Fin 2) = 0) :=
  (by decide +kernel : ∀ t : Fin grid1.N, _)

/-- There are 10 points. -/
theorem point_lt (t : Fin cfg1.N) : t.val < 10 := lt_of_lt_of_eq t.isLt (show cfg1.N = 10 from N_1)

/-- Row p of block t is row 5000·t + p of the 50000. -/
theorem row_lt (t : Fin cfg1.N) (p : Fin 5000) : 5000 * t.val + p.val < 50000 := by
  have := point_lt t
  have := p.isLt
  omega

/-- Row p of the node features' block at point t is row 5000·t + p of the node features. -/
theorem rows_features (c : Dev nD) (t : Fin cfg1.N) (p : Fin 5000) (k : Fin 128) :
    (iblk1 V c 0 t : Vec Ideal S5000x128 .f32) (ix2 p k) = V c main_arg0 (ix2 ⟨5000 * t.val + p.val, row_lt t p⟩ k) := by
  obtain ⟨⟨e0, e1⟩, -⟩ := block_indices t
  unfold iblk1
  rw [View.read_apply]
  show V c main_arg0 _ = V c main_arg0 _
  congr 1
  funext a
  apply Fin.ext
  match a with
  | ⟨0, _⟩ => show win1_0.index t (0 : Fin 2) * 5000 + 1 * p.val = 5000 * t.val + p.val; rw [e0]; omega
  | ⟨1, _⟩ => show win1_0.index t (1 : Fin 2) * 128 + 1 * k.val = k.val; rw [e1]; omega

/-- Row p of the aggregated messages' block at point t is row 5000·t + p of the aggregated messages. -/
theorem rows_aggregate (c : Dev nD) (t : Fin cfg1.N) (p : Fin 5000) (k : Fin 128) :
    (iblk1 V c 1 t : Vec Ideal S5000x128 .f32) (ix2 p k) = V c main_v13 (ix2 ⟨5000 * t.val + p.val, row_lt t p⟩ k) := by
  obtain ⟨-, ⟨e0, e1⟩, -⟩ := block_indices t
  unfold iblk1
  rw [View.read_apply]
  show V c main_v13 _ = V c main_v13 _
  congr 1
  funext a
  apply Fin.ext
  match a with
  | ⟨0, _⟩ => show win1_1.index t (0 : Fin 2) * 5000 + 1 * p.val = 5000 * t.val + p.val; rw [e0]; omega
  | ⟨1, _⟩ => show win1_1.index t (1 : Fin 2) * 128 + 1 * k.val = k.val; rw [e1]; omega

/-- The first layer's weights on the node features are fetched whole at every point. -/
theorem whole_wh (c : Dev nD) (t : Fin cfg1.N) : (iblk1 V c 2 t : Vec Ideal S128x128 .f32) = V c main_v16 := by
  obtain ⟨-, -, ⟨e0, e1⟩, -⟩ := block_indices t
  funext j
  unfold iblk1
  rw [View.read_apply]
  show V c main_v16 _ = V c main_v16 _
  congr 1
  funext a
  apply Fin.ext
  match a with
  | ⟨0, _⟩ => show win1_2.index t (0 : Fin 2) * 128 + 1 * (j 0).val = (j 0).val; rw [e0]; omega
  | ⟨1, _⟩ => show win1_2.index t (1 : Fin 2) * 128 + 1 * (j 1).val = (j 1).val; rw [e1]; omega

/-- The first layer's weights on the aggregated messages are fetched whole at every point. -/
theorem whole_wa (c : Dev nD) (t : Fin cfg1.N) : (iblk1 V c 3 t : Vec Ideal S128x128 .f32) = V c main_v17 := by
  obtain ⟨-, -, -, ⟨e0, e1⟩, -⟩ := block_indices t
  funext j
  unfold iblk1
  rw [View.read_apply]
  show V c main_v17 _ = V c main_v17 _
  congr 1
  funext a
  apply Fin.ext
  match a with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

/-- The first layer's bias row is fetched whole at every point. -/
theorem whole_b1 (c : Dev nD) (t : Fin cfg1.N) : (iblk1 V c 4 t : Vec Ideal S1x128 .f32) = V c main_v14 := by
  obtain ⟨-, -, -, -, ⟨e0, e1⟩, -⟩ := block_indices t
  funext j
  unfold iblk1
  rw [View.read_apply]
  show V c main_v14 _ = V c main_v14 _
  congr 1
  funext a
  apply Fin.ext
  match a with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

/-- The second layer's weights are fetched whole at every point. -/
theorem whole_w2 (c : Dev nD) (t : Fin cfg1.N) : (iblk1 V c 5 t : Vec Ideal S128x128 .f32) = V c main_arg8 := by
  obtain ⟨-, -, -, -, -, ⟨e0, e1⟩, -⟩ := block_indices t
  funext j
  unfold iblk1
  rw [View.read_apply]
  show V c main_arg8 _ = V c main_arg8 _
  congr 1
  funext a
  apply Fin.ext
  match a with
  | ⟨0, _⟩ => show win1_5.index t (0 : Fin 2) * 128 + 1 * (j 0).val = (j 0).val; rw [e0]; omega
  | ⟨1, _⟩ => show win1_5.index t (1 : Fin 2) * 128 + 1 * (j 1).val = (j 1).val; rw [e1]; omega

/-- The second layer's bias row is fetched whole at every point. -/
theorem whole_b2 (c : Dev nD) (t : Fin cfg1.N) : (iblk1 V c 6 t : Vec Ideal S1x128 .f32) = V c main_v15 := by
  obtain ⟨-, -, -, -, -, -, ⟨e0, e1⟩, -⟩ := block_indices t
  funext j
  unfold iblk1
  rw [View.read_apply]
  show V c main_v15 _ = V c main_v15 _
  congr 1
  funext a
  apply Fin.ext
  match a with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

/-- Entry (p, k) of the result's block at point t is entry (5000·t + p, k) of the result. -/
theorem result_row (t : Fin cfg1.N) (p : Fin 5000) (k : Fin 128) :
    ((cfg1.win 7).blk t).view.emb (ix2 p k : S5000x128.Idx) = (ix2 ⟨5000 * t.val + p.val, row_lt t p⟩ k : S50000x128.Idx) := by
  obtain ⟨-, -, -, -, -, -, -, e0, e1⟩ := block_indices t
  funext a
  apply Fin.ext
  match a with
  | ⟨0, _⟩ => show win1_7.index t (0 : Fin 2) * 5000 + 1 * p.val = 5000 * t.val + p.val; rw [e0]; omega
  | ⟨1, _⟩ => show win1_7.index t (1 : Fin 2) * 128 + 1 * k.val = k.val; rw [e1]; omega

/-- What point t writes back is block t of the node network of the operands as the region found them: the body
    computes the node network of its seven blocks, the network (its residual included) is row-local, and the blocks are
    rows 5000·t … 5000·t + 4999 of the node features and of the aggregated messages and the whole of the weights. -/
theorem written_block (c : Dev nD) (t : Fin cfg1.N) :
    (dat1 (F := Ideal) V c).flushed 7 t = ((cfg1.win 7).blk t).view.read (Elt Ideal)
      (Cert.Gnn.nodeArr (V c main_arg0) (V c main_v13) (V c main_v16) (V c main_v17) (V c main_v14) (V c main_arg8) (V c main_v15)) := by
  show (cfg1.win 7).cut (grid1.coords t) ((dat1 V c).after 7 t) = _
  rw [after1_7]
  unfold out1_7
  rw [View.canon_unit_zero zero_offsets]
  simp only [View.ld_unit_zero (S := S5000x128) zero_offsets, View.ld_unit_zero (S := S128x128) zero_offsets,
    View.ld_unit_zero (S := S1x128) zero_offsets]
  rw [NodeBody.node_payload, whole_wh, whole_wa, whole_b1, whole_w2, whole_b2]
  funext j
  obtain ⟨p, k, rfl⟩ : ∃ (p : Fin 5000) (k : Fin 128), j = (ix2 p k : S5000x128.Idx) := ⟨j 0, j 1, eq_ix2 j⟩
  show Cert.Gnn.nodeArr (iblk1 V c 0 t) (iblk1 V c 1 t) (V c main_v16) (V c main_v17) (V c main_v14) (V c main_arg8) (V c main_v15) (ix2 p k)
    = Cert.Gnn.nodeArr (V c main_arg0) (V c main_v13) (V c main_v16) (V c main_v17) (V c main_v14) (V c main_arg8) (V c main_v15)
        (((cfg1.win 7).blk t).view.emb (ix2 p k : S5000x128.Idx))
  rw [result_row]
  exact Cert.Gnn.nodeArr_row _ _ _ _ _ _ _ _ _ p ⟨5000 * t.val + p.val, row_lt t p⟩ k (rows_features V c t p) (rows_aggregate V c t p)

/-- An entry of the result is in point t's block iff each coordinate is in the block's range on its axis. -/
theorem mem_block (t : Fin cfg1.N) (i : S50000x128.Idx) :
    i ∈ ((cfg1.win 7).blk t).view.set ↔ ∀ a : Fin 2, win1_7.index t a * S5000x128.size a ≤ (i a).val ∧ (i a).val < win1_7.index t a * S5000x128.size a + S5000x128.size a := by
  show i ∈ ((View.whole main_v18).slice (win1_7.rect t)).set ↔ _
  rw [View.set_slice_whole, Rect.mem_set_unit]
  exact Iff.rfl

/-- Every entry of the result is written back by some point: row r lies in block r / 5000. -/
theorem rows_covered (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have ht : (i 0).val / 5000 < cfg1.N := lt_of_lt_of_eq (by omega) (show cfg1.N = 10 from N_1).symm
  obtain ⟨-, -, -, -, -, -, -, e0, e1⟩ := block_indices ⟨(i 0).val / 5000, ht⟩
  have e0' : win1_7.index ⟨(i 0).val / 5000, ht⟩ (0 : Fin 2) = (i 0).val / 5000 := e0
  refine ⟨⟨(i 0).val / 5000, ht⟩, flush1_7 _, ?_⟩
  rw [mem_block]
  intro a
  match a with
  | ⟨0, _⟩ =>
    show win1_7.index ⟨(i 0).val / 5000, ht⟩ (0 : Fin 2) * 5000 ≤ (i 0).val
      ∧ (i 0).val < win1_7.index ⟨(i 0).val / 5000, ht⟩ (0 : Fin 2) * 5000 + 5000
    rw [e0']; omega
  | ⟨1, _⟩ =>
    show win1_7.index ⟨(i 0).val / 5000, ht⟩ (1 : Fin 2) * 128 ≤ (i 1).val
      ∧ (i 1).val < win1_7.index ⟨(i 0).val / 5000, ht⟩ (1 : Fin 2) * 128 + 128
    rw [e1]; omega

/-- The result array after the region: the node network of the region's operands as it found them. -/
theorem final1 (c : Dev nD) :
    (dat1 (F := Ideal) V c).arrAt 7 cfg1.N
      = Cert.Gnn.nodeArr (V c main_arg0) (V c main_v13) (V c main_v16) (V c main_v17) (V c main_v14) (V c main_arg8) (V c main_v15) :=
  (dat1 (F := Ideal) V c).arrAt_eq_of_cover 7
    (Cert.Gnn.nodeArr (V c main_arg0) (V c main_v13) (V c main_v16) (V c main_v17) (V c main_v14) (V c main_arg8) (V c main_v15))
    (fun t _ => written_block V c t) rows_covered

end Cert.KernelIdeal.NodeRegion

end
-- ==== Proof.KernelHost.lean ====
/-
  The kernel program's host side, read back. Between the launch and the first region the program slices the edge list
  into its source and target rows, looks up both rows' features, splits the first edge weight matrix into its halves and
  views the two edge biases as rows; between the regions it scatter-adds the messages by source node into a zero array,
  and prepares the node weights the same way. Reading every buffer a region is handed back to the launch memory, and each
  region's array to the function it leaves (the edge network, then the node network), gives the result buffer as one
  function of the ten arguments.
-/
import proofs.«408699_j67018669687401_1_alg».proof.Proof.Gen.KernelIdeal.Frame
import proofs.«408699_j67018669687401_1_alg».proof.Proof.Take
import proofs.«408699_j67018669687401_1_alg».proof.Proof.EdgeRegion
import proofs.«408699_j67018669687401_1_alg».proof.Proof.NodeRegion
import Idealize.ShloMosaic.Lib.Pipeline.Value
import proofs.«408699_j67018669687401_1_alg».proof.Proof.Spec
import Idealize.ShloMosaic.Lib.StableHlo.Run

set_option maxRecDepth 16384
set_option Elab.async false

noncomputable section

namespace Cert.KernelIdeal.HostRead

open Cert.KernelIdeal Cert.KernelIdeal.Gen Idealize.ShloMosaic Idealize.ShloMosaic.TcCoe Idealize.ShloMosaic.ValueIdx Idealize.SL.Sem
open Idealize.ShloMosaic.StableHlo

variable {F : FTy → Type} [FloatOps F]
variable (m : (ℓ : Loc nD τ sig) → Buf (Elt F) ℓ) (ρ : Dev nD → PrngReg)

/-- Row 0 of the edge list: the source node of every edge. -/
def rowIdx (ei : IVec S2x800000 32) : IVec S800000 32 :=
  shapeCast S800000 (extractStridedSlice S1x800000 ![0, 0] ei slices_S2x800000_S1x800000_0_0) shapeCasts_S1x800000_S800000

/-- Row 1 of the edge list: the target node of every edge. -/
def colIdx (ei : IVec S2x800000 32) : IVec S800000 32 :=
  shapeCast S800000 (extractStridedSlice S1x800000 ![1, 0] ei slices_S2x800000_S1x800000_1_0) shapeCasts_S1x800000_S800000

/-- The upper half of a 256-row weight matrix, as the program slices it. -/
def sliceTop (w : FVec F S256x128 .f32) : FVec F S128x128 .f32 := extractStridedSlice S128x128 ![0, 0] w slices_S256x128_S128x128_0_0

/-- The lower half. -/
def sliceBot (w : FVec F S256x128 .f32) : FVec F S128x128 .f32 := extractStridedSlice S128x128 ![128, 0] w slices_S256x128_S128x128_128_0

/-- A bias vector viewed as a one-row matrix. -/
def rowShape (b : FVec F S128 .f32) : FVec F S1x128 .f32 := shapeCast S1x128 b shapeCasts_S128_S1x128

/-- No operation of a stretch writes the buffer: every operation's one result buffer is another reference. -/
macro "not_written" : tactic => `(tactic| (
  refine List.forall_iff_forall_mem.mp ?_
  simp only [hostOps0, hostOps0_1, hostOps0_2, hostOps0_3, hostOps1, List.Forall, StableHlo.nullary_writes, StableHlo.unary_writes,
    StableHlo.binary_writes, StableHlo.ternary_writes, StableHlo.quaternary_writes, StableHlo.reshape_writes, Finset.mem_singleton]
  repeat' apply And.intro
  all_goals exact StableHlo.devRef_ne_of_ne (by decide)))

/-- One buffer after a stretch, as the stretch's operations of the contents before it. -/
macro "read_stretch" : tactic => `(tactic| (
  simp only [hostOps0, hostOps0_1, hostOps0_2, hostOps0_3, hostOps1]
  after_results_simp <;> (try simp only [cast_eq]) <;> rfl))

/-! ## Each stretch of host operations, from any contents `Wg` before it -/

section Stretches
variable (Wg : Valuation τ sig (Elt F))

theorem s0_v1 : StableHlo.after hostOps0 Wg (Proc.devRef .tc main_v1) = rowIdx (Wg (Proc.devRef .tc main_arg1)) := by read_stretch
theorem s0_v3 : StableHlo.after hostOps0 Wg (Proc.devRef .tc main_v3) = colIdx (Wg (Proc.devRef .tc main_arg1)) := by read_stretch

/-- The last four operations of the lookup: spread the mask over the columns, make the fill, select. -/
theorem take0_select (W' : Valuation τ sig (Elt F)) :
    StableHlo.after ((hostOps0_1 : List (HloOp τ sig (Elt F))).drop 19) W' (Proc.devRef .tc main_v4)
      = select (broadcastInDim S800000x128 ![0] bcast_S800000_S800000x128_0 (W' (Proc.devRef .tc main_call0_v12))) (W' (Proc.devRef .tc main_call0_v13))
          (broadcastInDim S800000x128 ![] bcast_S_S800000x128 (constant S_ .f32 0x7FC00000#32)) := by
  simp only [hostOps0_1, List.drop_succ_cons, List.drop_zero]
  after_results_simp
  rfl

/-- Its first nineteen leave the in-range mask … -/
theorem take0_mask : StableHlo.after ((hostOps0_1 : List (HloOp τ sig (Elt F))).take 19) Wg (Proc.devRef .tc main_call0_v12) = Take.inRange (Wg (Proc.devRef .tc main_v1)) := by
  simp only [hostOps0_1, List.take_succ_cons, List.take_zero]
  after_results_simp
  simp only [cast_eq]
  rfl

/-- … and the rows gathered at the wrapped indices. -/
theorem take0_rows : StableHlo.after ((hostOps0_1 : List (HloOp τ sig (Elt F))).take 19) Wg (Proc.devRef .tc main_call0_v13)
    = Host.gather gather_S50000x128_S800000x1_S800000x128_1_0_n_n_0_1_1128 (Wg (Proc.devRef .tc main_arg0)) (Take.startCol (Wg (Proc.devRef .tc main_v1))) := by
  simp only [hostOps0_1, List.take_succ_cons, List.take_zero]
  after_results_simp
  rfl

theorem s1_v4 : StableHlo.after hostOps0_1 Wg (Proc.devRef .tc main_v4) = Take.takeFill (Wg (Proc.devRef .tc main_arg0)) (Wg (Proc.devRef .tc main_v1)) := by
  have e : StableHlo.after (hostOps0_1 : List (HloOp τ sig (Elt F))) Wg
      = StableHlo.after ((hostOps0_1 : List (HloOp τ sig (Elt F))).drop 19) (StableHlo.after ((hostOps0_1 : List (HloOp τ sig (Elt F))).take 19) Wg) := by
    rw [← StableHlo.after_append, List.take_append_drop]
  rw [e, take0_select, take0_mask, take0_rows]
  rfl

/-- The last four operations of the lookup: spread the mask over the columns, make the fill, select. -/
theorem take1_select (W' : Valuation τ sig (Elt F)) :
    StableHlo.after ((hostOps0_2 : List (HloOp τ sig (Elt F))).drop 19) W' (Proc.devRef .tc main_v5)
      = select (broadcastInDim S800000x128 ![0] bcast_S800000_S800000x128_0 (W' (Proc.devRef .tc main_call1_v12))) (W' (Proc.devRef .tc main_call1_v13))
          (broadcastInDim S800000x128 ![] bcast_S_S800000x128 (constant S_ .f32 0x7FC00000#32)) := by
  simp only [hostOps0_2, List.drop_succ_cons, List.drop_zero]
  after_results_simp
  rfl

/-- Its first nineteen leave the in-range mask … -/
theorem take1_mask : StableHlo.after ((hostOps0_2 : List (HloOp τ sig (Elt F))).take 19) Wg (Proc.devRef .tc main_call1_v12) = Take.inRange (Wg (Proc.devRef .tc main_v3)) := by
  simp only [hostOps0_2, List.take_succ_cons, List.take_zero]
  after_results_simp
  simp only [cast_eq]
  rfl

/-- … and the rows gathered at the wrapped indices. -/
theorem take1_rows : StableHlo.after ((hostOps0_2 : List (HloOp τ sig (Elt F))).take 19) Wg (Proc.devRef .tc main_call1_v13)
    = Host.gather gather_S50000x128_S800000x1_S800000x128_1_0_n_n_0_1_1128 (Wg (Proc.devRef .tc main_arg0)) (Take.startCol (Wg (Proc.devRef .tc main_v3))) := by
  simp only [hostOps0_2, List.take_succ_cons, List.take_zero]
  after_results_simp
  rfl

theorem s2_v5 : StableHlo.after hostOps0_2 Wg (Proc.devRef .tc main_v5) = Take.takeFill (Wg (Proc.devRef .tc main_arg0)) (Wg (Proc.devRef .tc main_v3)) := by
  have e : StableHlo.after (hostOps0_2 : List (HloOp τ sig (Elt F))) Wg
      = StableHlo.after ((hostOps0_2 : List (HloOp τ sig (Elt F))).drop 19) (StableHlo.after ((hostOps0_2 : List (HloOp τ sig (Elt F))).take 19) Wg) := by
    rw [← StableHlo.after_append, List.take_append_drop]
  rw [e, take1_select, take1_mask, take1_rows]
  rfl
theorem s3_v6 : StableHlo.after hostOps0_3 Wg (Proc.devRef .tc main_v6) = rowShape (Wg (Proc.devRef .tc main_arg3)) := by read_stretch
theorem s3_v7 : StableHlo.after hostOps0_3 Wg (Proc.devRef .tc main_v7) = rowShape (Wg (Proc.devRef .tc main_arg5)) := by read_stretch
theorem s3_v8 : StableHlo.after hostOps0_3 Wg (Proc.devRef .tc main_v8) = sliceTop (Wg (Proc.devRef .tc main_arg2)) := by read_stretch
theorem s3_v9 : StableHlo.after hostOps0_3 Wg (Proc.devRef .tc main_v9) = sliceBot (Wg (Proc.devRef .tc main_arg2)) := by read_stretch
theorem s4_v13 : StableHlo.after hostOps1 Wg (Proc.devRef .tc main_v13)
    = Host.scatterAdd scatter_S50000x128_S800000x1_S800000x128_1_0_0_1 (broadcastInDim S50000x128 ![] bcast_S_S50000x128 (constant S_ .f32 0x00000000#32))
        (broadcastInDim S800000x1 ![0] bcast_S800000_S800000x1_0 (Wg (Proc.devRef .tc main_v1))) (Wg (Proc.devRef .tc main_v10)) := by read_stretch
theorem s4_v14 : StableHlo.after hostOps1 Wg (Proc.devRef .tc main_v14) = rowShape (Wg (Proc.devRef .tc main_arg7)) := by read_stretch
theorem s4_v15 : StableHlo.after hostOps1 Wg (Proc.devRef .tc main_v15) = rowShape (Wg (Proc.devRef .tc main_arg9)) := by read_stretch
theorem s4_v16 : StableHlo.after hostOps1 Wg (Proc.devRef .tc main_v16) = sliceTop (Wg (Proc.devRef .tc main_arg6)) := by read_stretch
theorem s4_v17 : StableHlo.after hostOps1 Wg (Proc.devRef .tc main_v17) = sliceBot (Wg (Proc.devRef .tc main_arg6)) := by read_stretch

end Stretches

/-! ## A buffer no stretch has written still holds its launch contents -/

theorem W1_keep (c : Dev nD) (x : Ref sig .tc) (h0 : ∀ op ∈ (hostOps0 : List (HloOp τ sig (Elt F))), Proc.devRef .tc x ∉ op.writes) :
    W1 m ρ c (Proc.devRef .tc x) = m ((c : Thread nD τ).loc x) :=
  StableHlo.after_of_forall_not_mem _ _ h0

theorem W2_keep (c : Dev nD) (x : Ref sig .tc) (h0 : ∀ op ∈ (hostOps0 : List (HloOp τ sig (Elt F))), Proc.devRef .tc x ∉ op.writes)
    (h1 : ∀ op ∈ (hostOps0_1 : List (HloOp τ sig (Elt F))), Proc.devRef .tc x ∉ op.writes) :
    W2 m ρ c (Proc.devRef .tc x) = m ((c : Thread nD τ).loc x) :=
  (StableHlo.after_of_forall_not_mem _ _ h1).trans (W1_keep m ρ c x h0)

theorem W3_keep (c : Dev nD) (x : Ref sig .tc) (h0 : ∀ op ∈ (hostOps0 : List (HloOp τ sig (Elt F))), Proc.devRef .tc x ∉ op.writes)
    (h1 : ∀ op ∈ (hostOps0_1 : List (HloOp τ sig (Elt F))), Proc.devRef .tc x ∉ op.writes)
    (h2 : ∀ op ∈ (hostOps0_2 : List (HloOp τ sig (Elt F))), Proc.devRef .tc x ∉ op.writes) :
    W3 m ρ c (Proc.devRef .tc x) = m ((c : Thread nD τ).loc x) :=
  (StableHlo.after_of_forall_not_mem _ _ h2).trans (W2_keep m ρ c x h0 h1)

theorem W4_keep (c : Dev nD) (x : Ref sig .tc) (h0 : ∀ op ∈ (hostOps0 : List (HloOp τ sig (Elt F))), Proc.devRef .tc x ∉ op.writes)
    (h1 : ∀ op ∈ (hostOps0_1 : List (HloOp τ sig (Elt F))), Proc.devRef .tc x ∉ op.writes)
    (h2 : ∀ op ∈ (hostOps0_2 : List (HloOp τ sig (Elt F))), Proc.devRef .tc x ∉ op.writes)
    (h3 : ∀ op ∈ (hostOps0_3 : List (HloOp τ sig (Elt F))), Proc.devRef .tc x ∉ op.writes) :
    W4 m ρ c (Proc.devRef .tc x) = m ((c : Thread nD τ).loc x) :=
  (StableHlo.after_of_forall_not_mem _ _ h3).trans (W3_keep m ρ c x h0 h1 h2)

/-! ## What the first region is handed -/

theorem W1_v1 (c : Dev nD) : W1 m ρ c (Proc.devRef .tc main_v1) = rowIdx (m ((c : Thread nD τ).loc main_arg1)) := s0_v1 (W0 m ρ c)
theorem W1_v3 (c : Dev nD) : W1 m ρ c (Proc.devRef .tc main_v3) = colIdx (m ((c : Thread nD τ).loc main_arg1)) := s0_v3 (W0 m ρ c)

theorem W4_v1 (c : Dev nD) : W4 m ρ c (Proc.devRef .tc main_v1) = rowIdx (m ((c : Thread nD τ).loc main_arg1)) :=
  (StableHlo.after_of_forall_not_mem _ _ (by not_written)).trans ((StableHlo.after_of_forall_not_mem _ _ (by not_written)).trans
    ((StableHlo.after_of_forall_not_mem _ _ (by not_written)).trans (W1_v1 m ρ c)))

theorem W4_v4 (c : Dev nD) : W4 m ρ c (Proc.devRef .tc main_v4) = Take.takeFill (m ((c : Thread nD τ).loc main_arg0)) (rowIdx (m ((c : Thread nD τ).loc main_arg1))) := by
  refine (StableHlo.after_of_forall_not_mem _ _ (by not_written)).trans ((StableHlo.after_of_forall_not_mem _ _ (by not_written)).trans ?_)
  refine (s1_v4 (W1 m ρ c)).trans ?_
  rw [W1_keep m ρ c main_arg0 (by not_written), W1_v1]

theorem W4_v5 (c : Dev nD) : W4 m ρ c (Proc.devRef .tc main_v5) = Take.takeFill (m ((c : Thread nD τ).loc main_arg0)) (colIdx (m ((c : Thread nD τ).loc main_arg1))) := by
  refine (StableHlo.after_of_forall_not_mem _ _ (by not_written)).trans ?_
  refine (s2_v5 (W2 m ρ c)).trans ?_
  rw [W2_keep m ρ c main_arg0 (by not_written) (by not_written)]
  refine congrArg _ ?_
  exact (StableHlo.after_of_forall_not_mem _ _ (by not_written)).trans (W1_v3 m ρ c)

theorem W4_v6 (c : Dev nD) : W4 m ρ c (Proc.devRef .tc main_v6) = rowShape (m ((c : Thread nD τ).loc main_arg3)) := by
  refine (s3_v6 (W3 m ρ c)).trans ?_
  rw [W3_keep m ρ c main_arg3 (by not_written) (by not_written) (by not_written)]
theorem W4_v7 (c : Dev nD) : W4 m ρ c (Proc.devRef .tc main_v7) = rowShape (m ((c : Thread nD τ).loc main_arg5)) := by
  refine (s3_v7 (W3 m ρ c)).trans ?_
  rw [W3_keep m ρ c main_arg5 (by not_written) (by not_written) (by not_written)]
theorem W4_v8 (c : Dev nD) : W4 m ρ c (Proc.devRef .tc main_v8) = sliceTop (m ((c : Thread nD τ).loc main_arg2)) := by
  refine (s3_v8 (W3 m ρ c)).trans ?_
  rw [W3_keep m ρ c main_arg2 (by not_written) (by not_written) (by not_written)]
theorem W4_v9 (c : Dev nD) : W4 m ρ c (Proc.devRef .tc main_v9) = sliceBot (m ((c : Thread nD τ).loc main_arg2)) := by
  refine (s3_v9 (W3 m ρ c)).trans ?_
  rw [W3_keep m ρ c main_arg2 (by not_written) (by not_written) (by not_written)]

/-! ## At the ideal instance: the two regions' arrays, and the result -/

section AtIdeal

variable (mI : (ℓ : Loc nD τ sig) → Buf (Elt Ideal) ℓ)

theorem sliceTop_eq (w : FVec Ideal S256x128 .f32) : sliceTop w = Cert.Gnn.topHalf w := by
  funext i
  unfold sliceTop Cert.Gnn.topHalf
  exact extractStridedSlice_apply ![0, 0] w slices_S256x128_S128x128_0_0 i _ (fun a => match a with
    | ⟨0, _⟩ => by show (i 0).val = 0 + (i 0).val; omega
    | ⟨1, _⟩ => by show (i 1).val = 0 + (i 1).val; omega)

theorem sliceBot_eq (w : FVec Ideal S256x128 .f32) : sliceBot w = Cert.Gnn.botHalf w := by
  funext i
  unfold sliceBot Cert.Gnn.botHalf
  exact extractStridedSlice_apply ![128, 0] w slices_S256x128_S128x128_128_0 i _ (fun a => match a with
    | ⟨0, _⟩ => by show (i 0).val + 128 = 128 + (i 0).val; omega
    | ⟨1, _⟩ => by show (i 1).val = 0 + (i 1).val; omega)

theorem rowShape_eq (b : FVec Ideal S128 .f32) : rowShape b = Cert.Gnn.asRow b := by
  funext i
  unfold rowShape Cert.Gnn.asRow
  exact shapeCast_apply b shapeCasts_S128_S1x128 i _
    (by rewrite [Shape.rowMajor_val_one, Shape.rowMajor_val_two]; have h0 : (i 0).val < 1 := (i 0).isLt; show (i 1).val = (i 0).val * 128 + (i 1).val; omega)

/-- The message array: the edge network of the two looked-up feature arrays and the edge weights. -/
def messages (h : FVec Ideal S50000x128 .f32) (ei : IVec S2x800000 32) (eW1 : FVec Ideal S256x128 .f32) (eb1 : FVec Ideal S128 .f32)
    (eW2 : FVec Ideal S128x128 .f32) (eb2 : FVec Ideal S128 .f32) : FVec Ideal S800000x128 .f32 :=
  Cert.Gnn.edgeArr (Take.takeFill h (rowIdx ei)) (Take.takeFill h (colIdx ei)) (Cert.Gnn.topHalf eW1) (Cert.Gnn.botHalf eW1) (Cert.Gnn.asRow eb1) eW2 (Cert.Gnn.asRow eb2)

/-- The messages summed into their source nodes. -/
def aggregated (ei : IVec S2x800000 32) (msg : FVec Ideal S800000x128 .f32) : FVec Ideal S50000x128 .f32 :=
  Host.scatterAdd scatter_S50000x128_S800000x1_S800000x128_1_0_0_1 (broadcastInDim S50000x128 ![] bcast_S_S50000x128 (constant S_ .f32 0x00000000#32))
    (broadcastInDim S800000x1 ![0] bcast_S800000_S800000x1_0 (rowIdx ei)) msg

/-- What the kernel program leaves in its result buffer, as a function of its ten arguments. -/
def kernelValue (h : FVec Ideal S50000x128 .f32) (ei : IVec S2x800000 32) (eW1 : FVec Ideal S256x128 .f32) (eb1 : FVec Ideal S128 .f32)
    (eW2 : FVec Ideal S128x128 .f32) (eb2 : FVec Ideal S128 .f32) (nW1 : FVec Ideal S256x128 .f32) (nb1 : FVec Ideal S128 .f32)
    (nW2 : FVec Ideal S128x128 .f32) (nb2 : FVec Ideal S128 .f32) : FVec Ideal S50000x128 .f32 :=
  Cert.Gnn.nodeArr h (aggregated ei (messages h ei eW1 eb1 eW2 eb2)) (Cert.Gnn.topHalf nW1) (Cert.Gnn.botHalf nW1) (Cert.Gnn.asRow nb1) nW2 (Cert.Gnn.asRow nb2)

/-- The first region leaves the messages. -/
theorem W5_v10 (c : Dev nD) : W5 mI ρ c (Proc.devRef .tc main_v10)
    = messages (mI ((c : Thread nD τ).loc main_arg0)) (mI ((c : Thread nD τ).loc main_arg1)) (mI ((c : Thread nD τ).loc main_arg2))
        (mI ((c : Thread nD τ).loc main_arg3)) (mI ((c : Thread nD τ).loc main_arg4)) (mI ((c : Thread nD τ).loc main_arg5)) := by
  have e : W5 mI ρ c (Proc.devRef .tc main_v10) = (dat0 (V4 mI ρ) c).arrAt 7 cfg0.N := W5_arr mI ρ c 7
  rw [e, Cert.KernelIdeal.EdgeRegion.final0 (V4 mI ρ) c]
  show Cert.Gnn.edgeArr (W4 mI ρ c (Proc.devRef .tc main_v4)) (W4 mI ρ c (Proc.devRef .tc main_v5)) (W4 mI ρ c (Proc.devRef .tc main_v8)) (W4 mI ρ c (Proc.devRef .tc main_v9))
      (W4 mI ρ c (Proc.devRef .tc main_v6)) (W4 mI ρ c (Proc.devRef .tc main_arg4)) (W4 mI ρ c (Proc.devRef .tc main_v7)) = _
  rw [W4_v4, W4_v5, W4_v8, W4_v9, W4_v6, W4_v7, W4_keep mI ρ c main_arg4 (by not_written) (by not_written) (by not_written) (by not_written),
    sliceTop_eq, sliceBot_eq, rowShape_eq, rowShape_eq]
  rfl

/-- A buffer that is no array of the first region's and that no stretch before the second region writes holds its
    launch contents when the second region is entered. -/
theorem W6_keep (c : Dev nD) (x : Ref sig .tc) (hx : ∀ w, Pipeline.arrRef spec0 w ≠ x)
    (h0 : ∀ op ∈ (hostOps0 : List (HloOp τ sig (Elt Ideal))), Proc.devRef .tc x ∉ op.writes)
    (h1 : ∀ op ∈ (hostOps0_1 : List (HloOp τ sig (Elt Ideal))), Proc.devRef .tc x ∉ op.writes)
    (h2 : ∀ op ∈ (hostOps0_2 : List (HloOp τ sig (Elt Ideal))), Proc.devRef .tc x ∉ op.writes)
    (h3 : ∀ op ∈ (hostOps0_3 : List (HloOp τ sig (Elt Ideal))), Proc.devRef .tc x ∉ op.writes)
    (h4 : ∀ op ∈ (hostOps1 : List (HloOp τ sig (Elt Ideal))), Proc.devRef .tc x ∉ op.writes) :
    W6 mI ρ c (Proc.devRef .tc x) = mI ((c : Thread nD τ).loc x) :=
  (StableHlo.after_of_forall_not_mem _ _ h4).trans ((W5_of_ne mI ρ c x hx).trans (W4_keep mI ρ c x h0 h1 h2 h3))

/-- Likewise at the first region's exit. -/
theorem W5_keep (c : Dev nD) (x : Ref sig .tc) (hx : ∀ w, Pipeline.arrRef spec0 w ≠ x)
    (h0 : ∀ op ∈ (hostOps0 : List (HloOp τ sig (Elt Ideal))), Proc.devRef .tc x ∉ op.writes)
    (h1 : ∀ op ∈ (hostOps0_1 : List (HloOp τ sig (Elt Ideal))), Proc.devRef .tc x ∉ op.writes)
    (h2 : ∀ op ∈ (hostOps0_2 : List (HloOp τ sig (Elt Ideal))), Proc.devRef .tc x ∉ op.writes)
    (h3 : ∀ op ∈ (hostOps0_3 : List (HloOp τ sig (Elt Ideal))), Proc.devRef .tc x ∉ op.writes) :
    W5 mI ρ c (Proc.devRef .tc x) = mI ((c : Thread nD τ).loc x) :=
  (W5_of_ne mI ρ c x hx).trans (W4_keep mI ρ c x h0 h1 h2 h3)

/-- The second region is handed the messages summed by source node. -/
theorem W6_v13 (c : Dev nD) : W6 mI ρ c (Proc.devRef .tc main_v13)
    = aggregated (mI ((c : Thread nD τ).loc main_arg1)) (messages (mI ((c : Thread nD τ).loc main_arg0)) (mI ((c : Thread nD τ).loc main_arg1))
        (mI ((c : Thread nD τ).loc main_arg2)) (mI ((c : Thread nD τ).loc main_arg3)) (mI ((c : Thread nD τ).loc main_arg4)) (mI ((c : Thread nD τ).loc main_arg5))) := by
  refine (s4_v13 (W5 mI ρ c)).trans ?_
  rw [W5_v10, (W5_of_ne mI ρ c main_v1 (by decide)).trans (W4_v1 mI ρ c)]
  rfl

/-- THE RESULT BUFFER at the end of the run. -/
theorem result_eq (c : Dev nD) : W7 mI ρ c (Proc.devRef .tc main_v18)
    = kernelValue (mI ((c : Thread nD τ).loc main_arg0)) (mI ((c : Thread nD τ).loc main_arg1)) (mI ((c : Thread nD τ).loc main_arg2))
        (mI ((c : Thread nD τ).loc main_arg3)) (mI ((c : Thread nD τ).loc main_arg4)) (mI ((c : Thread nD τ).loc main_arg5))
        (mI ((c : Thread nD τ).loc main_arg6)) (mI ((c : Thread nD τ).loc main_arg7)) (mI ((c : Thread nD τ).loc main_arg8))
        (mI ((c : Thread nD τ).loc main_arg9)) := by
  have e : W7 mI ρ c (Proc.devRef .tc main_v18) = (dat1 (V6 mI ρ) c).arrAt 7 cfg1.N := W7_arr mI ρ c 7
  rw [e, Cert.KernelIdeal.NodeRegion.final1 (V6 mI ρ) c]
  show Cert.Gnn.nodeArr (W6 mI ρ c (Proc.devRef .tc main_arg0)) (W6 mI ρ c (Proc.devRef .tc main_v13)) (W6 mI ρ c (Proc.devRef .tc main_v16)) (W6 mI ρ c (Proc.devRef .tc main_v17))
      (W6 mI ρ c (Proc.devRef .tc main_v14)) (W6 mI ρ c (Proc.devRef .tc main_arg8)) (W6 mI ρ c (Proc.devRef .tc main_v15)) = _
  have h16 : W6 mI ρ c (Proc.devRef .tc main_v16) = sliceTop (F := Ideal) (W5 mI ρ c (Proc.devRef .tc main_arg6)) := s4_v16 (W5 mI ρ c)
  have h17 : W6 mI ρ c (Proc.devRef .tc main_v17) = sliceBot (F := Ideal) (W5 mI ρ c (Proc.devRef .tc main_arg6)) := s4_v17 (W5 mI ρ c)
  have h14 : W6 mI ρ c (Proc.devRef .tc main_v14) = rowShape (F := Ideal) (W5 mI ρ c (Proc.devRef .tc main_arg7)) := s4_v14 (W5 mI ρ c)
  have h15 : W6 mI ρ c (Proc.devRef .tc main_v15) = rowShape (F := Ideal) (W5 mI ρ c (Proc.devRef .tc main_arg9)) := s4_v15 (W5 mI ρ c)
  rw [W6_v13, W6_keep ρ mI c main_arg0 (by decide) (by not_written) (by not_written) (by not_written) (by not_written) (by not_written),
    W6_keep ρ mI c main_arg8 (by decide) (by not_written) (by not_written) (by not_written) (by not_written) (by not_written),
    h16, h17, h14, h15,
    W5_keep ρ mI c main_arg6 (by decide) (by not_written) (by not_written) (by not_written) (by not_written),
    W5_keep ρ mI c main_arg7 (by decide) (by not_written) (by not_written) (by not_written) (by not_written),
    W5_keep ρ mI c main_arg9 (by decide) (by not_written) (by not_written) (by not_written) (by not_written),
    sliceTop_eq, sliceBot_eq, rowShape_eq, rowShape_eq]
  rfl

end AtIdeal

end Cert.KernelIdeal.HostRead

end
-- ==== Proof.PreDecode.lean ====
/-
  The precondition, decoded at one entry of the edge list: every entry of `edge_index` is a node number, at least 0
  and below 50000 as a signed word.
-/
import proofs.«408699_j67018669687401_1_alg».proof.Defs
import proofs.«408699_j67018669687401_1_alg».proof.Proof.Gen.KernelIdeal
import proofs.«408699_j67018669687401_1_alg».proof.Proof.Gen.Pre_finite_inputs
import Idealize.ShloMosaic.Lib.ValueIdx
import Idealize.ShloMosaic.Lib.ReduceAll
import Idealize.ShloMosaic.Lib.StableHlo.Predicate

set_option maxRecDepth 16384

noncomputable section

open scoped BigOperators

namespace Cert.KernelIdeal.PreDecode

open Cert.KernelIdeal Cert.KernelIdeal.Gen Idealize.ShloMosaic Idealize.ShloMosaic.TcCoe Idealize.ShloMosaic.ValueIdx Idealize.SL.Sem

/-- The rank-0 shape has one index. -/
local instance : Subsingleton S_.Idx := ⟨fun a b => funext fun d => d.elim0⟩

/-- Every entry of the edge list is in [0, 50000), signed. -/
theorem idx_in_range (m : (ℓ : Loc nD τ sig) → Buf (Elt Ideal) ℓ) (h : Cert.Pre_KernelIdeal m) (c : Dev nD) (i : S2x800000.Idx) :
    IntOp.cmpi .sge (m ((c.tc : Thread nD τ).loc main_arg1) i) 0#32 = 1#1
      ∧ IntOp.cmpi .slt (m ((c.tc : Thread nD τ).loc main_arg1) i) 50000#32 = 1#1 := by
  -- the precondition's single word, on device c
  have e := congrFun (h c) ValueIdx.ix0
  dsimp only [Cert.Pre_finite_inputs.fn, Cert.Pre_finite_inputs.fn_part1, Cert.Pre_finite_inputs.fn_part2] at e
  -- the outermost conjunction: keep its last member, the all-entries test of the edge list
  have e49 := (IntOp.andi_eq_one.1 e).2
  -- an all-reduce by "and" that is 1 had a 1 at every entry
  have ei := Host.reduce_andi_all _ _ _ _ _ e49 i
  -- the entry's test is the conjunction of the two comparisons against the broadcast constants
  exact IntOp.andi_eq_one.1 ei

end Cert.KernelIdeal.PreDecode

end
-- ==== Proof.RefRead.lean ====
/-
  The reference program, read at the ideal instance in two stretches. Its message array is the edge network (Spec.lean's
  `edgeArr`) of the two gathered arrays: the product of the concatenated [h[row], h[col]] with the 256-row first weight
  matrix is the sum of the two products with the matrix's halves, and the reference's silu, x · (1 / (1 + e^(-x))), is x · σ(x).
  Its result is the node network (`nodeArr`) of the node features and the scattered sums, for the same two reasons.

  Each stretch is read inside-out at a (row, column) index: the broadcast bias, the first layer before its activation,
  the hidden row, the second layer, and last the whole stage. The gathers and the scatter are never opened.
-/
import proofs.«408699_j67018669687401_1_alg».proof.Proof.Gen.ReferenceIdeal.Read
import proofs.«408699_j67018669687401_1_alg».proof.Proof.Spec
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefRead

open Cert.ReferenceIdeal Cert.ReferenceIdeal.Gen Cert.ReferenceIdeal.Read Idealize.ShloMosaic Idealize.ShloMosaic.TcCoe Idealize.ShloMosaic.ValueIdx Idealize.SL.Sem

variable (x0 : (⟨S50000x128, .f32⟩ : BufTy).Contents (Elt Ideal)) (x1 : (⟨S2x800000, .i32⟩ : BufTy).Contents (Elt Ideal)) (x2 : (⟨S256x128, .f32⟩ : BufTy).Contents (Elt Ideal)) (x3 : (⟨S128, .f32⟩ : BufTy).Contents (Elt Ideal))
  (x4 : (⟨S128x128, .f32⟩ : BufTy).Contents (Elt Ideal)) (x5 : (⟨S128, .f32⟩ : BufTy).Contents (Elt Ideal)) (x6 : (⟨S256x128, .f32⟩ : BufTy).Contents (Elt Ideal)) (x7 : (⟨S128, .f32⟩ : BufTy).Contents (Elt Ideal))
  (x8 : (⟨S128x128, .f32⟩ : BufTy).Contents (Elt Ideal)) (x9 : (⟨S128, .f32⟩ : BufTy).Contents (Elt Ideal))

/-! ## Facts that need no program -/

/-- The f32 word 0x3F800000 denotes 1. -/
theorem one_f32 : Ideal.ofBits .f32 0x3F800000#32 = 1 := by
  simp [Ideal.ofBits, Ideal.ieee, -EReal.coe_mul]; norm_num

/-- x · (1 / (1 + e^(-x))), the constant 1 written as its f32 word, is x · σ(x). -/
theorem silu_read (x : Ideal .f32) :
    FloatOps.mulf x (FloatOps.hostDivf (FloatOps.ofBits (F := Ideal) .f32 0x3F800000#32)
      (FloatOps.addf (FloatOps.ofBits (F := Ideal) .f32 0x3F800000#32) (FloatOps.hostUnary .exp (FloatOps.hostNegf x))))
      = Cert.Gnn.silu x := by
  simp only [Ideal.mulf_def, Ideal.hostDivf_def, Ideal.ofBits_def, Ideal.addf_def, Ideal.hostUnary_exp_def,
    Ideal.hostNegf_def, Ideal.negf_def, one_f32]
  rfl

/-- The first 128 columns of a two-piece concatenation along the columns are the first piece. -/
theorem concat_left {n : Nat} (a b : Cert.Gnn.Arr n 128)
    (h : Shape.Concatenates [(⟨2, ![n, 128]⟩ : Shape), ⟨2, ![n, 128]⟩] ⟨2, ![n, 256]⟩ 1) (e : Fin n) (k : Fin 128) :
    concatenate (⟨2, ![n, 256]⟩ : Shape) 1 [⟨⟨2, ![n, 128]⟩, a⟩, ⟨⟨2, ![n, 128]⟩, b⟩] h (ix2 e ⟨k.val, by omega⟩) = a (ix2 e k) :=
  concatenate_pair_apply_left 1 a b h _ rfl (ix2 e k) (fun d => match d with | ⟨0, _⟩ => rfl | ⟨1, _⟩ => rfl)

/-- Columns 128..255 are the second piece, at the column less 128. -/
theorem concat_right {n : Nat} (a b : Cert.Gnn.Arr n 128)
    (h : Shape.Concatenates [(⟨2, ![n, 128]⟩ : Shape), ⟨2, ![n, 128]⟩] ⟨2, ![n, 256]⟩ 1) (e : Fin n) (k : Fin 128) :
    concatenate (⟨2, ![n, 256]⟩ : Shape) 1 [⟨⟨2, ![n, 128]⟩, a⟩, ⟨⟨2, ![n, 128]⟩, b⟩] h (ix2 e ⟨k.val + 128, by omega⟩) = b (ix2 e k) :=
  concatenate_pair_apply_right 1 a b h _ rfl rfl (ix2 e k)
    (fun d => match d with | ⟨0, _⟩ => fun _ => rfl | ⟨1, _⟩ => fun hne => absurd rfl hne) rfl

/-- A row of the concatenation [a, b] times the 256-row matrix w is the row of a times w's upper half plus the row of b
    times its lower half. -/
theorem dot_halves {n : Nat} (a b : Cert.Gnn.Arr n 128) (w : Cert.Gnn.Arr 256 128)
    (h : Shape.Concatenates [(⟨2, ![n, 128]⟩ : Shape), ⟨2, ![n, 128]⟩] ⟨2, ![n, 256]⟩ 1) (e : Fin n) (j : Fin 128) :
    ∑ k : Fin 256, concatenate (⟨2, ![n, 256]⟩ : Shape) 1 [⟨⟨2, ![n, 128]⟩, a⟩, ⟨⟨2, ![n, 128]⟩, b⟩] h (ix2 e k) * w (ix2 k j)
      = (∑ k : Fin 128, a (ix2 e k) * Cert.Gnn.topHalf w (ix2 k j)) + ∑ k : Fin 128, b (ix2 e k) * Cert.Gnn.botHalf w (ix2 k j) := by
  rw [Cert.Gnn.sum_halves]
  congr 1
  · refine Finset.sum_congr rfl fun k _ => ?_
    rw [concat_left]; rfl
  · refine Finset.sum_congr rfl fun k _ => ?_
    rw [concat_right]; rfl

/-! ## The reference's index maps at (row, column) -/

theorem lidx19 (e : Fin 800000) (j : Fin 128) (k : Fin 256) : lidx_main_v19 (ix2 e j) k = ix2 e k :=
  funext fun a => Fin.ext (by match a with | ⟨0, _⟩ => rfl | ⟨1, _⟩ => rfl)
theorem ridx19 (e : Fin 800000) (j : Fin 128) (k : Fin 256) : ridx_main_v19 (ix2 e j) k = ix2 k j :=
  funext fun a => Fin.ext (by match a with | ⟨0, _⟩ => rfl | ⟨1, _⟩ => rfl)
theorem lidx24 (e : Fin 800000) (j : Fin 128) (k : Fin 128) : lidx_main_v24 (ix2 e j) k = ix2 e k :=
  funext fun a => Fin.ext (by match a with | ⟨0, _⟩ => rfl | ⟨1, _⟩ => rfl)
theorem ridx24 (e : Fin 800000) (j : Fin 128) (k : Fin 128) : ridx_main_v24 (ix2 e j) k = ix2 k j :=
  funext fun a => Fin.ext (by match a with | ⟨0, _⟩ => rfl | ⟨1, _⟩ => rfl)
theorem idx21 (e : Fin 800000) (j : Fin 128) : idx_main_v20 (idx_main_v21 (ix2 e j)) = ix1 j :=
  funext fun a => Fin.ext (by match a with | ⟨0, _⟩ => rfl)
theorem idx26 (e : Fin 800000) (j : Fin 128) : idx_main_v25 (idx_main_v26 (ix2 e j)) = ix1 j :=
  funext fun a => Fin.ext (by match a with | ⟨0, _⟩ => rfl)
theorem lidx33 (r : Fin 50000) (j : Fin 128) (k : Fin 256) : lidx_main_v33 (ix2 r j) k = ix2 r k :=
  funext fun a => Fin.ext (by match a with | ⟨0, _⟩ => rfl | ⟨1, _⟩ => rfl)
theorem ridx33 (r : Fin 50000) (j : Fin 128) (k : Fin 256) : ridx_main_v33 (ix2 r j) k = ix2 k j :=
  funext fun a => Fin.ext (by match a with | ⟨0, _⟩ => rfl | ⟨1, _⟩ => rfl)
theorem lidx38 (r : Fin 50000) (j : Fin 128) (k : Fin 128) : lidx_main_v38 (ix2 r j) k = ix2 r k :=
  funext fun a => Fin.ext (by match a with | ⟨0, _⟩ => rfl | ⟨1, _⟩ => rfl)
theorem ridx38 (r : Fin 50000) (j : Fin 128) (k : Fin 128) : ridx_main_v38 (ix2 r j) k = ix2 k j :=
  funext fun a => Fin.ext (by match a with | ⟨0, _⟩ => rfl | ⟨1, _⟩ => rfl)
theorem idx35 (r : Fin 50000) (j : Fin 128) : idx_main_v34 (idx_main_v35 (ix2 r j)) = ix1 j :=
  funext fun a => Fin.ext (by match a with | ⟨0, _⟩ => rfl)
theorem idx40 (r : Fin 50000) (j : Fin 128) : idx_main_v39 (idx_main_v40 (ix2 r j)) = ix1 j :=
  funext fun a => Fin.ext (by match a with | ⟨0, _⟩ => rfl)

/-! ## The edge stretch -/

/-- The first layer's bias, broadcast over the rows. -/
theorem v21_at (e : Fin 800000) (j : Fin 128) :
    val_main_v21 (F := Ideal) x3 (ix2 e j) = Cert.Gnn.asRow x3 (ix2 0 j) := by
  rw [val_main_v21_apply, val_main_v20_apply, idx21]
  rfl

/-- The first layer before its activation: the two half products and the bias. -/
theorem v22_at (e : Fin 800000) (j : Fin 128) :
    val_main_v22 (F := Ideal) x0 x1 x2 x3 (ix2 e j)
      = ((∑ k : Fin 128, val_main_v10 (F := Ideal) x0 x1 (ix2 e k) * Cert.Gnn.topHalf x2 (ix2 k j))
          + ∑ k : Fin 128, val_main_v17 (F := Ideal) x0 x1 (ix2 e k) * Cert.Gnn.botHalf x2 (ix2 k j))
        + Cert.Gnn.asRow x3 (ix2 0 j) := by
  rw [val_main_v22_apply, val_main_v19_apply, v21_at, Ideal.addf_def]
  simp only [lidx19, ridx19]
  unfold val_main_v18
  generalize val_main_v10 (F := Ideal) x0 x1 = g10
  generalize val_main_v17 (F := Ideal) x0 x1 = g17
  exact congrArg (fun t => t + Cert.Gnn.asRow x3 (ix2 0 j))
    (dot_halves g10 g17 x2 concatenates_S800000x128_S800000x128_S800000x256_d1 e j)

/-- The hidden row of an edge. -/
theorem v23_at (e : Fin 800000) (k : Fin 128) :
    val_main_v23 (F := Ideal) x0 x1 x2 x3 (ix2 e k)
      = Cert.Gnn.hidden (Cert.Gnn.rowOf (val_main_v10 (F := Ideal) x0 x1) e) (Cert.Gnn.rowOf (val_main_v17 (F := Ideal) x0 x1) e)
          (Cert.Gnn.topHalf x2) (Cert.Gnn.botHalf x2) (Cert.Gnn.asRow x3) k := by
  rw [val_main_v23_apply, val_main_call0_v5_apply, val_main_call0_v4_apply, val_main_call0_cst_0_apply,
    val_main_call0_v3_apply, val_main_call0_v2_apply, val_main_call0_cst_apply, val_main_call0_v1_apply,
    val_main_call0_v0_apply, silu_read, v22_at]
  generalize val_main_v10 (F := Ideal) x0 x1 = g10
  generalize val_main_v17 (F := Ideal) x0 x1 = g17
  rfl

/-- The second layer's bias, broadcast over the rows. -/
theorem v26_at (e : Fin 800000) (j : Fin 128) :
    val_main_v26 (F := Ideal) x5 (ix2 e j) = Cert.Gnn.asRow x5 (ix2 0 j) := by
  rw [val_main_v26_apply, val_main_v25_apply, idx26]
  rfl

/-- The second layer over the hidden row. -/
theorem v27_at (e : Fin 800000) (j : Fin 128) :
    val_main_v27 (F := Ideal) x0 x1 x2 x3 x4 x5 (ix2 e j)
      = Cert.Gnn.second (Cert.Gnn.hidden (Cert.Gnn.rowOf (val_main_v10 (F := Ideal) x0 x1) e) (Cert.Gnn.rowOf (val_main_v17 (F := Ideal) x0 x1) e)
          (Cert.Gnn.topHalf x2) (Cert.Gnn.botHalf x2) (Cert.Gnn.asRow x3)) x4 (Cert.Gnn.asRow x5) j := by
  rw [val_main_v27_apply, val_main_v24_apply, v26_at, Ideal.addf_def]
  simp only [lidx24, ridx24, v23_at]
  generalize val_main_v10 (F := Ideal) x0 x1 = g10
  generalize val_main_v17 (F := Ideal) x0 x1 = g17
  rfl

/-- The reference's message array (its second silu's result) is the edge network of its two gathers. -/
theorem edge_stage :
    val_main_v28 (F := Ideal) x0 x1 x2 x3 x4 x5
      = Cert.Gnn.edgeArr (val_main_v10 (F := Ideal) x0 x1) (val_main_v17 (F := Ideal) x0 x1) (Cert.Gnn.topHalf x2) (Cert.Gnn.botHalf x2)
          (Cert.Gnn.asRow x3) x4 (Cert.Gnn.asRow x5) := by
  funext i
  obtain ⟨e, j, rfl⟩ : ∃ (e : Fin 800000) (j : Fin 128), i = ix2 e j := ⟨i 0, i 1, eq_ix2 i⟩
  rw [val_main_v28_apply, val_main_call1_v5_apply, val_main_call1_v4_apply, val_main_call1_cst_0_apply,
    val_main_call1_v3_apply, val_main_call1_v2_apply, val_main_call1_cst_apply, val_main_call1_v1_apply,
    val_main_call1_v0_apply, silu_read, v27_at]
  generalize val_main_v10 (F := Ideal) x0 x1 = g10
  generalize val_main_v17 (F := Ideal) x0 x1 = g17
  rfl

/-! ## The node stretch -/

/-- The node network's first bias, broadcast over the rows. -/
theorem v35_at (r : Fin 50000) (j : Fin 128) :
    val_main_v35 (F := Ideal) x7 (ix2 r j) = Cert.Gnn.asRow x7 (ix2 0 j) := by
  rw [val_main_v35_apply, val_main_v34_apply, idx35]
  rfl

/-- The node network's first layer before its activation: the two half products and the bias. -/
theorem v36_at (r : Fin 50000) (j : Fin 128) :
    val_main_v36 (F := Ideal) x0 x1 x2 x3 x4 x5 x6 x7 (ix2 r j)
      = ((∑ k : Fin 128, x0 (ix2 r k) * Cert.Gnn.topHalf x6 (ix2 k j))
          + ∑ k : Fin 128, val_main_v31 (F := Ideal) x0 x1 x2 x3 x4 x5 (ix2 r k) * Cert.Gnn.botHalf x6 (ix2 k j))
        + Cert.Gnn.asRow x7 (ix2 0 j) := by
  rw [val_main_v36_apply, val_main_v33_apply, v35_at, Ideal.addf_def]
  simp only [lidx33, ridx33]
  unfold val_main_v32
  generalize val_main_v31 (F := Ideal) x0 x1 x2 x3 x4 x5 = g31
  exact congrArg (fun t => t + Cert.Gnn.asRow x7 (ix2 0 j))
    (dot_halves x0 g31 x6 concatenates_S50000x128_S50000x128_S50000x256_d1 r j)

/-- The hidden row of a node. -/
theorem v37_at (r : Fin 50000) (k : Fin 128) :
    val_main_v37 (F := Ideal) x0 x1 x2 x3 x4 x5 x6 x7 (ix2 r k)
      = Cert.Gnn.hidden (Cert.Gnn.rowOf x0 r) (Cert.Gnn.rowOf (val_main_v31 (F := Ideal) x0 x1 x2 x3 x4 x5) r)
          (Cert.Gnn.topHalf x6) (Cert.Gnn.botHalf x6) (Cert.Gnn.asRow x7) k := by
  rw [val_main_v37_apply, val_main_call2_v5_apply, val_main_call2_v4_apply, val_main_call2_cst_0_apply,
    val_main_call2_v3_apply, val_main_call2_v2_apply, val_main_call2_cst_apply, val_main_call2_v1_apply,
    val_main_call2_v0_apply, silu_read, v36_at]
  generalize val_main_v31 (F := Ideal) x0 x1 x2 x3 x4 x5 = g31
  rfl

/-- The node network's second bias, broadcast over the rows. -/
theorem v40_at (r : Fin 50000) (j : Fin 128) :
    val_main_v40 (F := Ideal) x9 (ix2 r j) = Cert.Gnn.asRow x9 (ix2 0 j) := by
  rw [val_main_v40_apply, val_main_v39_apply, idx40]
  rfl

/-- The node network's second layer over the hidden row. -/
theorem v41_at (r : Fin 50000) (j : Fin 128) :
    val_main_v41 (F := Ideal) x0 x1 x2 x3 x4 x5 x6 x7 x8 x9 (ix2 r j)
      = Cert.Gnn.second (Cert.Gnn.hidden (Cert.Gnn.rowOf x0 r) (Cert.Gnn.rowOf (val_main_v31 (F := Ideal) x0 x1 x2 x3 x4 x5) r)
          (Cert.Gnn.topHalf x6) (Cert.Gnn.botHalf x6) (Cert.Gnn.asRow x7)) x8 (Cert.Gnn.asRow x9) j := by
  rw [val_main_v41_apply, val_main_v38_apply, v40_at, Ideal.addf_def]
  simp only [lidx38, ridx38, v37_at]
  generalize val_main_v31 (F := Ideal) x0 x1 x2 x3 x4 x5 = g31
  rfl

/-- The reference's result is the node network of the node features and its scattered sums. -/
theorem node_stage :
    val_main_v42 (F := Ideal) x0 x1 x2 x3 x4 x5 x6 x7 x8 x9
      = Cert.Gnn.nodeArr x0 (val_main_v31 (F := Ideal) x0 x1 x2 x3 x4 x5) (Cert.Gnn.topHalf x6) (Cert.Gnn.botHalf x6)
          (Cert.Gnn.asRow x7) x8 (Cert.Gnn.asRow x9) := by
  funext i
  obtain ⟨r, j, rfl⟩ : ∃ (r : Fin 50000) (j : Fin 128), i = ix2 r j := ⟨i 0, i 1, eq_ix2 i⟩
  rw [val_main_v42_apply, v41_at, Ideal.addf_def]
  generalize val_main_v31 (F := Ideal) x0 x1 x2 x3 x4 x5 = g31
  rfl

end Cert.ReferenceIdeal.RefRead

end
-- ==== Proof.Bridge.lean ====
/-
  The two programs compute one function. The reference's message array and the kernel program's are the same edge
  network of the same operands: the only operand the programs spell differently is the row lookup, where the kernel
  program masks rows whose index is out of range and the reference does not; with every entry of the edge list a node
  number no row is masked. Both then sum the messages into their source nodes by the same scatter-add, and the
  reference's result is the node network of the same operands as the kernel program's.
-/
import proofs.«408699_j67018669687401_1_alg».proof.Proof.KernelHost
import proofs.«408699_j67018669687401_1_alg».proof.Proof.RefRead
import proofs.«408699_j67018669687401_1_alg».proof.Proof.PreDecode

set_option maxRecDepth 16384

noncomputable section

namespace Cert.Bridge

open Idealize.ShloMosaic Idealize.ShloMosaic.TcCoe Idealize.ShloMosaic.ValueIdx Idealize.SL.Sem
open Cert.KernelIdeal.HostRead Cert.KernelIdeal.Take Cert.ReferenceIdeal.Read

-- the ten arguments, typed as the reference's stages take them
variable (x0 : (⟨Cert.ReferenceIdeal.S50000x128, .f32⟩ : BufTy).Contents (Elt Ideal)) (x1 : (⟨Cert.ReferenceIdeal.S2x800000, .i32⟩ : BufTy).Contents (Elt Ideal))
  (x2 : (⟨Cert.ReferenceIdeal.S256x128, .f32⟩ : BufTy).Contents (Elt Ideal)) (x3 : (⟨Cert.ReferenceIdeal.S128, .f32⟩ : BufTy).Contents (Elt Ideal))
  (x4 : (⟨Cert.ReferenceIdeal.S128x128, .f32⟩ : BufTy).Contents (Elt Ideal)) (x5 : (⟨Cert.ReferenceIdeal.S128, .f32⟩ : BufTy).Contents (Elt Ideal))

/-- Every entry of the edge list is a node number. -/
def NodeIds (ei : IVec Cert.KernelIdeal.S2x800000 32) : Prop :=
  ∀ i, IntOp.cmpi .sge (ei i) 0#32 = 1#1 ∧ IntOp.cmpi .slt (ei i) 50000#32 = 1#1

/-- The reference's source-row vector is the kernel program's. -/
theorem row_eq : val_main_v1 (F := Ideal) x1 = rowIdx x1 := rfl

/-- The reference's target-row vector is the kernel program's. -/
theorem col_eq : val_main_v3 (F := Ideal) x1 = colIdx x1 := rfl

theorem row_ids (h : NodeIds x1) (i) : IntOp.cmpi .sge (rowIdx x1 i) 0#32 = 1#1 ∧ IntOp.cmpi .slt (rowIdx x1 i) 50000#32 = 1#1 := by
  rw [← row_eq, val_main_v1_apply, val_main_v0_apply]
  exact h _

theorem col_ids (h : NodeIds x1) (i) : IntOp.cmpi .sge (colIdx x1 i) 0#32 = 1#1 ∧ IntOp.cmpi .slt (colIdx x1 i) 50000#32 = 1#1 := by
  rw [← col_eq, val_main_v3_apply, val_main_v2_apply]
  exact h _

/-- The reference's gather by source row is the kernel program's masked lookup. -/
theorem gather_row (h : NodeIds x1) : val_main_v10 (F := Ideal) x0 x1 = takeFill (F := Ideal) x0 (rowIdx x1) := by
  rw [takeFill_eq_gather (F := Ideal) x0 (rowIdx x1) (row_ids x1 h)]
  rfl

/-- The reference's gather by target row is the kernel program's masked lookup. -/
theorem gather_col (h : NodeIds x1) : val_main_v17 (F := Ideal) x0 x1 = takeFill (F := Ideal) x0 (colIdx x1) := by
  rw [takeFill_eq_gather (F := Ideal) x0 (colIdx x1) (col_ids x1 h)]
  rfl

/-- The two message arrays are one. -/
theorem messages_eq (h : NodeIds x1) : val_main_v28 (F := Ideal) x0 x1 x2 x3 x4 x5 = messages x0 x1 x2 x3 x4 x5 := by
  rw [Cert.ReferenceIdeal.RefRead.edge_stage, gather_row x0 x1 h, gather_col x0 x1 h]
  rfl

/-- The two aggregated arrays are one: the same scatter-add of the same messages by the same source rows. -/
theorem aggregated_eq (h : NodeIds x1) : val_main_v31 (F := Ideal) x0 x1 x2 x3 x4 x5 = aggregated x1 (messages x0 x1 x2 x3 x4 x5) := by
  unfold val_main_v31
  rw [messages_eq x0 x1 x2 x3 x4 x5 h]
  rfl

variable (x6 : (⟨Cert.ReferenceIdeal.S256x128, .f32⟩ : BufTy).Contents (Elt Ideal)) (x7 : (⟨Cert.ReferenceIdeal.S128, .f32⟩ : BufTy).Contents (Elt Ideal))
  (x8 : (⟨Cert.ReferenceIdeal.S128x128, .f32⟩ : BufTy).Contents (Elt Ideal)) (x9 : (⟨Cert.ReferenceIdeal.S128, .f32⟩ : BufTy).Contents (Elt Ideal))

/-- THE REFERENCE'S RESULT is the kernel program's, as functions of the ten arguments. -/
theorem result_eq (h : NodeIds x1) : val_main_v42 (F := Ideal) x0 x1 x2 x3 x4 x5 x6 x7 x8 x9 = kernelValue x0 x1 x2 x3 x4 x5 x6 x7 x8 x9 := by
  rw [Cert.ReferenceIdeal.RefRead.node_stage, aggregated_eq x0 x1 x2 x3 x4 x5 h]
  rfl

end Cert.Bridge

end
-- ==== Proof.lean ====
/-
  The certificate: a graph layer (gather the two endpoint rows of every edge, a two-layer edge network, a scatter-add of
  the messages by source node, a two-layer node network with a residual) computed by two tiled kernels with host glue
  between them, against the plain array program. At the ideal instance both compute one function of the ten arguments
  (Proof/Bridge.lean): the products with the 256-row first-layer matrices split into the sums of the products with their
  halves, x · (1 / (1 + e^(-x))) is x · σ(x), and the kernel program's masked row lookup masks nothing once every entry of
  the edge list is a node number, which the precondition says. The word-level kernel program needs only its frame.
-/
import proofs.«408699_j67018669687401_1_alg».proof.Defs
import proofs.«408699_j67018669687401_1_alg».proof.Proof.Gen.Kernel
import proofs.«408699_j67018669687401_1_alg».proof.Proof.Gen.Kernel.Skeleton
import proofs.«408699_j67018669687401_1_alg».proof.Proof.Gen.Kernel.Launch
import proofs.«408699_j67018669687401_1_alg».proof.Proof.Gen.Kernel.Points
import proofs.«408699_j67018669687401_1_alg».proof.Proof.Gen.Kernel.Frame
import proofs.«408699_j67018669687401_1_alg».proof.Proof.Gen.KernelIdeal
import proofs.«408699_j67018669687401_1_alg».proof.Proof.Gen.KernelIdeal.Skeleton
import proofs.«408699_j67018669687401_1_alg».proof.Proof.Gen.KernelIdeal.Launch
import proofs.«408699_j67018669687401_1_alg».proof.Proof.Gen.KernelIdeal.Points
import proofs.«408699_j67018669687401_1_alg».proof.Proof.Gen.KernelIdeal.Frame
import proofs.«408699_j67018669687401_1_alg».proof.Proof.Gen.ReferenceIdeal
import proofs.«408699_j67018669687401_1_alg».proof.Proof.Gen.Pre_finite_inputs
import proofs.«408699_j67018669687401_1_alg».proof.Proof.Gen.ReferenceIdeal.Run
import proofs.«408699_j67018669687401_1_alg».proof.Proof.Gen.ReferenceIdeal.Read
import proofs.«408699_j67018669687401_1_alg».proof.Proof.KernelRun
import proofs.«408699_j67018669687401_1_alg».proof.Proof.KernelHost
import proofs.«408699_j67018669687401_1_alg».proof.Proof.PreDecode
import proofs.«408699_j67018669687401_1_alg».proof.Proof.Bridge
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- So does the kernel program read at the ideal instance. -/
theorem frame_kernelIdeal : Cert.frame_KernelIdeal := fun m ρ _ => Cert.KernelIdeal.Gen.frame m ρ

/-- The reference runs and keeps its arguments: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten on the way to the ideal program. -/
theorem preserves : Cert.preserves_Kernel_KernelIdeal := trivial

/-- Both programs end with the same result: the kernel program's is `kernelValue` of its arguments (the launch over
    its segments, each region's array, the host operations read back), the reference's is its last stage of ITS arguments,
    which agree with the kernel program's, and the two are one function where the edge list holds node numbers. -/
theorem algebraic : Cert.algebraic_KernelIdeal_ReferenceIdeal := by
  intro m ρ m' ρ' hpre hagree
  refine ⟨fun c => Cert.KernelIdeal.HostRead.kernelValue (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)), ?_, ?_⟩
  · exact (θ_run Cert.KernelIdeal.defs _ _).mono
      (fun r h c => ⟨(h c).1.trans (Cert.KernelIdeal.HostRead.result_eq ρ m c), (h c).2⟩)
      (Cert.KernelIdeal.Gen.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    rw [Cert.ReferenceIdeal.Read.val_main_v42_eq, h0, h1, h2, h3, h4, h5, h6, h7, h8, h9]
    exact Cert.Bridge.result_eq _ _ _ _ _ _ _ _ _ _ (fun i => Cert.KernelIdeal.PreDecode.idx_in_range m hpre c i)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
